-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8x4096 : Shape := ⟨3, ![64, 8, 4096]⟩
abbrev S8x335544 : Shape := ⟨2, ![8, 335544]⟩
abbrev S_ : Shape := ⟨0, ![]⟩

class Facts : Prop where
  bcast_S_S64x8x4096 : S_.BroadcastsInDim S64x8x4096 (![] : Fin 0 → Fin S64x8x4096.rank)
  reducesTo_S64x8x4096_S_d0_1_2 : S64x8x4096.ReducesTo [0, 1, 2] S_
  h_S_ : 0 < S_.numel
  bcast_S_S8x335544 : S_.BroadcastsInDim S8x335544 (![] : Fin 0 → Fin S8x335544.rank)
  reducesTo_S8x335544_S_d0_1 : S8x335544.ReducesTo [0, 1] S_

variable [Facts]

def fn_part1 {F : FTy → Type} [FloatOps F] (main_arg4 : IVec S8x335544 32) (main_v13 : IVec S_ 1) (main_v15 : IVec S8x335544 1) (main_c_5 : IVec S_ 32) : IVec S_ 1 :=
  let main_v16 : IVec S8x335544 32 := broadcastInDim S8x335544 ![] bcast_S_S8x335544 main_c_5
  let main_v17 : IVec S8x335544 1 := cmpi .slt main_arg4 main_v16
  let main_v18 : IVec S8x335544 1 := andi main_v15 main_v17
  let main_c_6 : IVec S_ 1 := constantI S_ 1 1#1
  let main_v19 : IVec S_ 1 := (fun x v => Host.reduce IntOp.andi x v reducesTo_S8x335544_S_d0_1 h_S_) main_v18 main_c_6
  let main_v20 : IVec S_ 1 := andi main_v13 main_v19
  main_v20

def fn {F : FTy → Type} [FloatOps F] (main_arg0 : FVec F S64x8x4096 .f32) (main_arg1 : FVec F S64x8x4096 .f32) (main_arg2 : FVec F S8x335544 .f32) (main_arg3 : IVec S8x335544 32) (main_arg4 : IVec S8x335544 32) : IVec S_ 1 :=
  let main_v0 : FVec F S64x8x4096 .f32 := Host.absf main_arg0
  let main_cst : FVec F S_ .f32 := constant S_ .f32 0x7F800000#32
  let main_v1 : FVec F S64x8x4096 .f32 := broadcastInDim S64x8x4096 ![] bcast_S_S64x8x4096 main_cst
  let main_v2 : IVec S64x8x4096 1 := cmpf .olt main_v0 main_v1
  let main_c : IVec S_ 1 := constantI S_ 1 1#1
  let main_v3 : IVec S_ 1 := (fun x v => Host.reduce IntOp.andi x v reducesTo_S64x8x4096_S_d0_1_2 h_S_) main_v2 main_c
  let main_v4 : FVec F S64x8x4096 .f32 := Host.absf main_arg1
  let main_cst_0 : FVec F S_ .f32 := constant S_ .f32 0x7F800000#32
  let main_v5 : FVec F S64x8x4096 .f32 := broadcastInDim S64x8x4096 ![] bcast_S_S64x8x4096 main_cst_0
  let main_v6 : IVec S64x8x4096 1 := cmpf .olt main_v4 main_v5
  let main_c_1 : IVec S_ 1 := constantI S_ 1 1#1
  let main_v7 : IVec S_ 1 := (fun x v => Host.reduce IntOp.andi x v reducesTo_S64x8x4096_S_d0_1_2 h_S_) main_v6 main_c_1
  let main_v8 : IVec S_ 1 := andi main_v3 main_v7
  let main_v9 : FVec F S8x335544 .f32 := Host.absf main_arg2
  let main_cst_2 : FVec F S_ .f32 := constant S_ .f32 0x7F800000#32
  let main_v10 : FVec F S8x335544 .f32 := broadcastInDim S8x335544 ![] bcast_S_S8x335544 main_cst_2
  let main_v11 : IVec S8x335544 1 := cmpf .olt main_v9 main_v10
  let main_c_3 : IVec S_ 1 := constantI S_ 1 1#1
  let main_v12 : IVec S_ 1 := (fun x v => Host.reduce IntOp.andi x v reducesTo_S8x335544_S_d0_1 h_S_) main_v11 main_c_3
  let main_v13 : IVec S_ 1 := andi main_v8 main_v12
  let main_c_4 : IVec S_ 32 := constantI S_ 32 0#32
  let main_v14 : IVec S8x335544 32 := broadcastInDim S8x335544 ![] bcast_S_S8x335544 main_c_4
  let main_v15 : IVec S8x335544 1 := cmpi .sge main_arg4 main_v14
  let main_c_5 : IVec S_ 32 := constantI S_ 32 4096#32
  fn_part1 (F := F) main_arg4 main_v13 main_v15 main_c_5
-- ==== Kernel.lean ====
abbrev S64x8x4096 : Shape := ⟨3, ![64, 8, 4096]⟩
abbrev S8x335544 : Shape := ⟨2, ![8, 335544]⟩
abbrev S8 : Shape := ⟨1, ![8]⟩
abbrev S8x1 : Shape := ⟨2, ![8, 1]⟩
abbrev S_ : Shape := ⟨0, ![]⟩
abbrev S8x4096x4096 : Shape := ⟨3, ![8, 4096, 4096]⟩
abbrev S8x335544x1 : Shape := ⟨3, ![8, 335544, 1]⟩
abbrev S8x335544x3 : Shape := ⟨3, ![8, 335544, 3]⟩
abbrev S8x64x4096 : Shape := ⟨3, ![8, 64, 4096]⟩
abbrev S1x64x4096 : Shape := ⟨3, ![1, 64, 4096]⟩
abbrev S1x64x1024 : Shape := ⟨3, ![1, 64, 1024]⟩
abbrev S1x4096x1024 : Shape := ⟨3, ![1, 4096, 1024]⟩
abbrev S64x1024 : Shape := ⟨2, ![64, 1024]⟩
abbrev S64x4096 : Shape := ⟨2, ![64, 4096]⟩
abbrev S4096x1024 : Shape := ⟨2, ![4096, 1024]⟩

abbrev nBuf : Space → Nat
  | .hbm => 42
  | .vmem => 10
  | .smem => 0
  | _ => 0

abbrev bufTy : (tb : Table) → Fin (tcTables nBuf tb) → BufTy
  | .hbm, ⟨0, _⟩ => ⟨S64x8x4096, .f32⟩
  | .hbm, ⟨1, _⟩ => ⟨S64x8x4096, .f32⟩
  | .hbm, ⟨2, _⟩ => ⟨S8x335544, .f32⟩
  | .hbm, ⟨3, _⟩ => ⟨S8x335544, .i32⟩
  | .hbm, ⟨4, _⟩ => ⟨S8x335544, .i32⟩
  | .hbm, ⟨5, _⟩ => ⟨S8, .i32⟩
  | .hbm, ⟨6, _⟩ => ⟨S8x1, .i32⟩
  | .hbm, ⟨7, _⟩ => ⟨S_, .f32⟩
  | .hbm, ⟨8, _⟩ => ⟨S8x4096x4096, .f32⟩
  | .hbm, ⟨9, _⟩ => ⟨S_, .i32⟩
  | .hbm, ⟨10, _⟩ => ⟨S8x1, .i32⟩
  | .hbm, ⟨11, _⟩ => ⟨S8x1, .i1⟩
  | .hbm, ⟨12, _⟩ => ⟨S_, .i32⟩
  | .hbm, ⟨13, _⟩ => ⟨S8x1, .i32⟩
  | .hbm, ⟨14, _⟩ => ⟨S8x1, .i32⟩
  | .hbm, ⟨15, _⟩ => ⟨S8x1, .i32⟩
  | .hbm, ⟨16, _⟩ => ⟨S_, .i32⟩
  | .hbm, ⟨17, _⟩ => ⟨S8x335544, .i32⟩
  | .hbm, ⟨18, _⟩ => ⟨S8x335544, .i1⟩
  | .hbm, ⟨19, _⟩ => ⟨S_, .i32⟩
  | .hbm, ⟨20, _⟩ => ⟨S8x335544, .i32⟩
  | .hbm, ⟨21, _⟩ => ⟨S8x335544, .i32⟩
  | .hbm, ⟨22, _⟩ => ⟨S8x335544, .i32⟩
  | .hbm, ⟨23, _⟩ => ⟨S_, .i32⟩
  | .hbm, ⟨24, _⟩ => ⟨S8x335544, .i32⟩
  | .hbm, ⟨25, _⟩ => ⟨S8x335544, .i1⟩
  | .hbm, ⟨26, _⟩ => ⟨S_, .i32⟩
  | .hbm, ⟨27, _⟩ => ⟨S8x335544, .i32⟩
  | .hbm, ⟨28, _⟩ => ⟨S8x335544, .i32⟩
  | .hbm, ⟨29, _⟩ => ⟨S8x335544, .i32⟩
  | .hbm, ⟨30, _⟩ => ⟨S8x335544, .i32⟩
  | .hbm, ⟨31, _⟩ => ⟨S8x335544x1, .i32⟩
  | .hbm, ⟨32, _⟩ => ⟨S8x335544x1, .i32⟩
  | .hbm, ⟨33, _⟩ => ⟨S8x335544x1, .i32⟩
  | .hbm, ⟨34, _⟩ => ⟨S8x335544x3, .i32⟩
  | .hbm, ⟨35, _⟩ => ⟨S8x4096x4096, .f32⟩
  | .hbm, ⟨36, _⟩ => ⟨S8x4096x4096, .bf16⟩
  | .hbm, ⟨37, _⟩ => ⟨S8x64x4096, .f32⟩
  | .hbm, ⟨38, _⟩ => ⟨S8x64x4096, .f32⟩
  | .hbm, ⟨39, _⟩ => ⟨S8x64x4096, .bf16⟩
  | .hbm, ⟨40, _⟩ => ⟨S8x64x4096, .f32⟩
  | .hbm, ⟨41, _⟩ => ⟨S64x8x4096, .f32⟩
  | .local _ .vmem, ⟨0, _⟩ => ⟨S1x64x4096, .f32⟩
  | .local _ .vmem, ⟨1, _⟩ => ⟨S1x64x4096, .f32⟩
  | .local _ .vmem, ⟨2, _⟩ => ⟨S1x64x4096, .bf16⟩
  | .local _ .vmem, ⟨3, _⟩ => ⟨S1x64x4096, .bf16⟩
  | .local _ .vmem, ⟨4, _⟩ => ⟨S1x64x1024, .f32⟩
  | .local _ .vmem, ⟨5, _⟩ => ⟨S1x64x1024, .f32⟩
  | .local _ .vmem, ⟨6, _⟩ => ⟨S1x4096x1024, .bf16⟩
  | .local _ .vmem, ⟨7, _⟩ => ⟨S1x4096x1024, .bf16⟩
  | .local _ .vmem, ⟨8, _⟩ => ⟨S1x64x1024, .f32⟩
  | .local _ .vmem, ⟨9, _⟩ => ⟨S1x64x1024, .f32⟩
  | _, _ => ⟨S64x8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 3 → Nat :=
  let c0 : Index := 0#32
  let c0_0 : Index := 0#32
  let arg1 : BitVec 32 := BitVec.ofNat 32 (i 1).val
  let c1024_i32 : BitVec 32 := 1024#32
  let v0 : BitVec 32 := Scalar.muli arg1 c1024_i32
  let v1 : BitVec 32 := v0
  let v2 : Index := Scalar.indexCast v1
  ![0, 0, v2.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S8_S8x1_0 : S8.BroadcastsInDim S8x1 (![0] : Fin 1 → Fin S8x1.rank)
  bcast_S_S8x4096x4096 : S_.BroadcastsInDim S8x4096x4096 (![] : Fin 0 → Fin S8x4096x4096.rank)
  bcast_S_S8x1 : S_.BroadcastsInDim S8x1 (![] : Fin 0 → Fin S8x1.rank)
  bcast_S_S8x335544 : S_.BroadcastsInDim S8x335544 (![] : Fin 0 → Fin S8x335544.rank)
  bcast_S8x1_S8x335544_0_1 : S8x1.BroadcastsInDim S8x335544 (![0, 1] : Fin 2 → Fin S8x335544.rank)
  bcast_S8x335544_S8x335544x1_0_1 : S8x335544.BroadcastsInDim S8x335544x1 (![0, 1] : Fin 2 → Fin S8x335544x1.rank)
  concatenates_S8x335544x1_S8x335544x1_S8x335544x1_S8x335544x3_d2 : Shape.Concatenates [S8x335544x1, S8x335544x1, S8x335544x1] S8x335544x3 2
  bitsLt_bf16_f32 : FTy.bits .bf16 < FTy.bits .f32
  transposes_S64x8x4096_S8x64x4096_1_0_2 : S64x8x4096.Transposes [1, 0, 2] S8x64x4096
  h_S1x64x1024 : 0 < S1x64x1024.numel
  shapeCasts_S1x64x1024_S64x1024 : S1x64x1024.ShapeCasts S64x1024
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  inb_S1x64x1024_S1x64x1024_0_0_0 : ∀ a, (![0, 0, 0] : Fin 3 → Nat) a + S1x64x1024.size a ≤ S1x64x1024.size a
  shapeCasts_S64x1024_S1x64x1024 : S64x1024.ShapeCasts S1x64x1024
  transposes_S8x64x4096_S64x8x4096_1_0_2 : S8x64x4096.Transposes [1, 0, 2] S64x8x4096
  scatter_S8x4096x4096_S8x335544x3_S8x335544_n_012_012_2_wf : ScatterDims.WF S8x4096x4096 S8x335544x3 S8x335544 [] [0, 1, 2] [0, 1, 2] 2
  dot_S64x4096_S4096x1024_S64x1024_1_0_0_1_n_n_wf : DotDims.WF S64x4096 S4096x1024 S64x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x64x1024.size a ≤ S1x64x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x4096.size a ≤ S8x64x4096.size a
  hwx0_0 : ∀ i : grid0.Coords, EltTy.bits .f32 = 32 ∨ (Rect.block (s := S8x64x4096) S1x64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x4096.size a ≤ S8x64x4096.size a
  hwx0_1 : ∀ i : grid0.Coords, EltTy.bits .bf16 = 32 ∨ (Rect.block (s := S8x64x4096) S1x64x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1024.size a ≤ S8x64x4096.size a
  hwx0_2 : ∀ i : grid0.Coords, EltTy.bits .f32 = 32 ∨ (Rect.block (s := S8x64x4096) S1x64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x1024.size a ≤ S8x4096x4096.size a
  hwx0_3 : ∀ i : grid0.Coords, EltTy.bits .bf16 = 32 ∨ (Rect.block (s := S8x4096x4096) S1x4096x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1024.size a ≤ S8x64x4096.size a
  hwx0_4 : ∀ i : grid0.Coords, EltTy.bits .f32 = 32 ∨ (Rect.block (s := S8x64x4096) S1x64x1024.size (cc0_transform_4 i) (hinb0_4 i)).WholeWords (EltTy.packing .f32)

variable [Facts₀]

def scatter_S8x4096x4096_S8x335544x3_S8x335544_n_012_012_2 : ScatterDims S8x4096x4096 S8x335544x3 S8x335544 where
  updateWindowDims := []
  insertedWindowDims := [0, 1, 2]
  scatterDimsToOperandDims := [0, 1, 2]
  indexVectorDim := 2
  wf := scatter_S8x4096x4096_S8x335544x3_S8x335544_n_012_012_2_wf
def dot_S64x4096_S4096x1024_S64x1024_1_0_0_1_n_n : DotDims S64x4096 S4096x1024 S64x1024 where
  lhsContracting := [1]
  rhsContracting := [0]
  lhsNonContracting := [0]
  rhsNonContracting := [1]
  lhsBatch := []
  rhsBatch := []
  wf := dot_S64x4096_S4096x1024_S64x1024_1_0_0_1_n_n_wf

abbrev win0_0 : Pipeline.Window sig grid0 :=
  Pipeline.Window.ofSpec (Memref.whole main_v26) S1x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1x64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x4096x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x64x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x8x4096 : Shape := ⟨3, ![64, 8, 4096]⟩
abbrev S8x335544 : Shape := ⟨2, ![8, 335544]⟩
abbrev S8 : Shape := ⟨1, ![8]⟩
abbrev S8x1 : Shape := ⟨2, ![8, 1]⟩
abbrev S_ : Shape := ⟨0, ![]⟩
abbrev S8x335544x1 : Shape := ⟨3, ![8, 335544, 1]⟩
abbrev S8x335544x2 : Shape := ⟨3, ![8, 335544, 2]⟩
abbrev S64x8x335544 : Shape := ⟨3, ![64, 8, 335544]⟩
abbrev S1x8x335544 : Shape := ⟨3, ![1, 8, 335544]⟩

abbrev nBuf : Space → Nat
  | .hbm => 62
  | .vmem => 0
  | .smem => 0
  | _ => 0

abbrev bufTy : (tb : Table) → Fin (tcTables nBuf tb) → BufTy
  | .hbm, ⟨0, _⟩ => ⟨S64x8x4096, .f32⟩
  | .hbm, ⟨1, _⟩ => ⟨S64x8x4096, .f32⟩
  | .hbm, ⟨2, _⟩ => ⟨S8x335544, .f32⟩
  | .hbm, ⟨3, _⟩ => ⟨S8x335544, .i32⟩
  | .hbm, ⟨4, _⟩ => ⟨S8x335544, .i32⟩
  | .hbm, ⟨5, _⟩ => ⟨S8, .i32⟩
  | .hbm, ⟨6, _⟩ => ⟨S8x1, .i32⟩
  | .hbm, ⟨7, _⟩ => ⟨S_, .i32⟩
  | .hbm, ⟨8, _⟩ => ⟨S8x1, .i32⟩
  | .hbm, ⟨9, _⟩ => ⟨S8x1, .i1⟩
  | .hbm, ⟨10, _⟩ => ⟨S_, .i32⟩
  | .hbm, ⟨11, _⟩ => ⟨S8x1, .i32⟩
  | .hbm, ⟨12, _⟩ => ⟨S8x1, .i32⟩
  | .hbm, ⟨13, _⟩ => ⟨S8x1, .i32⟩
  | .hbm, ⟨14, _⟩ => ⟨S_, .i32⟩
  | .hbm, ⟨15, _⟩ => ⟨S8x335544, .i32⟩
  | .hbm, ⟨16, _⟩ => ⟨S8x335544, .i1⟩
  | .hbm, ⟨17, _⟩ => ⟨S_, .i32⟩
  | .hbm, ⟨18, _⟩ => ⟨S8x335544, .i32⟩
  | .hbm, ⟨19, _⟩ => ⟨S8x335544, .i32⟩
  | .hbm, ⟨20, _⟩ => ⟨S8x335544, .i32⟩
  | .hbm, ⟨21, _⟩ => ⟨S8x335544, .i32⟩
  | .hbm, ⟨22, _⟩ => ⟨S8x335544x1, .i32⟩
  | .hbm, ⟨23, _⟩ => ⟨S8x335544x1, .i32⟩
  | .hbm, ⟨24, _⟩ => ⟨S8x335544x2, .i32⟩
  | .hbm, ⟨25, _⟩ => ⟨S64x8x335544, .f32⟩
  | .hbm, ⟨26, _⟩ => ⟨S1x8x335544, .f32⟩
  | .hbm, ⟨27, _⟩ => ⟨S64x8x335544, .f32⟩
  | .hbm, ⟨28, _⟩ => ⟨S64x8x335544, .f32⟩
  | .hbm, ⟨29, _⟩ => ⟨S_, .f32⟩
  | .hbm, ⟨30, _⟩ => ⟨S64x8x4096, .f32⟩
  | .hbm, ⟨31, _⟩ => ⟨S_, .i32⟩
  | .hbm, ⟨32, _⟩ => ⟨S8x1, .i32⟩
  | .hbm, ⟨33, _⟩ => ⟨S8x1, .i1⟩
  | .hbm, ⟨34, _⟩ => ⟨S_, .i32⟩
  | .hbm, ⟨35, _⟩ => ⟨S8x1, .i32⟩
  | .hbm, ⟨36, _⟩ => ⟨S8x1, .i32⟩
  | .hbm, ⟨37, _⟩ => ⟨S8x1, .i32⟩
  | .hbm, ⟨38, _⟩ => ⟨S_, .i32⟩
  | .hbm, ⟨39, _⟩ => ⟨S8x335544, .i32⟩
  | .hbm, ⟨40, _⟩ => ⟨S8x335544, .i1⟩
  | .hbm, ⟨41, _⟩ => ⟨S_, .i32⟩
  | .hbm, ⟨42, _⟩ => ⟨S8x335544, .i32⟩
  | .hbm, ⟨43, _⟩ => ⟨S8x335544, .i32⟩
  | .hbm, ⟨44, _⟩ => ⟨S8x335544, .i32⟩
  | .hbm, ⟨45, _⟩ => ⟨S8x335544, .i32⟩
  | .hbm, ⟨46, _⟩ => ⟨S8x335544x1, .i32⟩
  | .hbm, ⟨47, _⟩ => ⟨S8x335544x1, .i32⟩
  | .hbm, ⟨48, _⟩ => ⟨S8x335544x2, .i32⟩
  | .hbm, ⟨49, _⟩ => ⟨S64x8x4096, .f32⟩
  | .hbm, ⟨50, _⟩ => ⟨S64x8x4096, .f32⟩
  | .hbm, ⟨51, _⟩ => ⟨S_, .f32⟩
  | .hbm, ⟨52, _⟩ => ⟨S64x8x4096, .f32⟩
  | .hbm, ⟨53, _⟩ => ⟨S64x8x4096, .f32⟩
  | .hbm, ⟨54, _⟩ => ⟨S64x8x4096, .f32⟩
  | .hbm, ⟨55, _⟩ => ⟨S_, .f32⟩
  | .hbm, ⟨56, _⟩ => ⟨S64x8x4096, .f32⟩
  | .hbm, ⟨57, _⟩ => ⟨S64x8x4096, .f32⟩
  | .hbm, ⟨58, _⟩ => ⟨S_, .f32⟩
  | .hbm, ⟨59, _⟩ => ⟨S64x8x4096, .f32⟩
  | .hbm, ⟨60, _⟩ => ⟨S64x8x4096, .f32⟩
  | .hbm, ⟨61, _⟩ => ⟨S64x8x4096, .f32⟩
  | _, _ => ⟨S64x8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]

class Facts₀ : Prop where
  bcast_S8_S8x1_0 : S8.BroadcastsInDim S8x1 (![0] : Fin 1 → Fin S8x1.rank)
  bcast_S_S8x1 : S_.BroadcastsInDim S8x1 (![] : Fin 0 → Fin S8x1.rank)
  bcast_S_S8x335544 : S_.BroadcastsInDim S8x335544 (![] : Fin 0 → Fin S8x335544.rank)
  bcast_S8x1_S8x335544_0_1 : S8x1.BroadcastsInDim S8x335544 (![0, 1] : Fin 2 → Fin S8x335544.rank)
  bcast_S8x335544_S8x335544x1_0_1 : S8x335544.BroadcastsInDim S8x335544x1 (![0, 1] : Fin 2 → Fin S8x335544x1.rank)
  concatenates_S8x335544x1_S8x335544x1_S8x335544x2_d2 : Shape.Concatenates [S8x335544x1, S8x335544x1] S8x335544x2 2
  bcast_S8x335544_S1x8x335544_1_2 : S8x335544.BroadcastsInDim S1x8x335544 (![1, 2] : Fin 2 → Fin S1x8x335544.rank)
  bcast_S1x8x335544_S64x8x335544_0_1_2 : S1x8x335544.BroadcastsInDim S64x8x335544 (![0, 1, 2] : Fin 3 → Fin S64x8x335544.rank)
  bcast_S_S64x8x4096 : S_.BroadcastsInDim S64x8x4096 (![] : Fin 0 → Fin S64x8x4096.rank)
  gather_S64x8x4096_S8x335544x2_S64x8x335544_0_12_n_n_12_2_6411_wf : GatherDims.WF S64x8x4096 S8x335544x2 S64x8x335544 [0] [1, 2] [] [1, 2] [] 2 ![64, 1, 1]
  scatter_S64x8x4096_S8x335544x2_S64x8x335544_0_12_12_2_wf : ScatterDims.WF S64x8x4096 S8x335544x2 S64x8x335544 [0] [1, 2] [1, 2] 2

variable [Facts₀]

def gather_S64x8x4096_S8x335544x2_S64x8x335544_0_12_n_n_12_2_6411 : GatherDims S64x8x4096 S8x335544x2 S64x8x335544 where
  offsetDims := [0]
  collapsedSliceDims := [1, 2]
  operandBatchingDims := []
  startIndicesBatchingDims := []
  startIndexMap := [1, 2]
  indexVectorDim := 2
  sliceSizes := ![64, 1, 1]
  wf := gather_S64x8x4096_S8x335544x2_S64x8x335544_0_12_n_n_12_2_6411_wf
def scatter_S64x8x4096_S8x335544x2_S64x8x335544_0_12_12_2 : ScatterDims S64x8x4096 S8x335544x2 S64x8x335544 where
  updateWindowDims := [0]
  insertedWindowDims := [1, 2]
  scatterDimsToOperandDims := [1, 2]
  indexVectorDim := 2
  wf := scatter_S64x8x4096_S8x335544x2_S64x8x335544_0_12_12_2_wf

class Facts : Prop extends Facts₀ where

variable [Facts]
-- ==== Proof.KernelRegion.lean ====
/-
  The run of `Kernel`'s @main around its one pallas_call, at any float instance: thirty-five host
  operations (the index normalisation, the scatter-add that densifies the sparse matrix, the
  transposes and the two roundings to bf16), the region over its 8 × 4 grid, and one transpose after
  it.  Each grid point (c, rt) computes one 64 × 1024 tile of
      0.6 · tanh(res_c · WT_c + proj_c + 1.6) + 0.4 · res_c
  from the whole 64 × 4096 row block of chunk c (as f32 and as bf16), the tile of the projection
  and the 4096 × 1024 column tile of the dense weight; it writes nothing else and keeps nothing
  between points, so after the region the result array holds, block by block, the body's one
  store, and every argument array is as it was launched.
-/
import proofs.«412699_j45578192945261_2_alg».proof.Proof.Gen.Kernel.Launch
import proofs.«412699_j45578192945261_2_alg».proof.Proof.Gen.Kernel.Skeleton
import proofs.«412699_j45578192945261_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the region is entered with -/

/-- Core `c`'s buffers when the pallas_call starts: the launch memory after the host operations that precede it. -/
abbrev entry (c : Dev nD) : Valuation τ sig (Elt F) := StableHlo.after (List.flatten [hostOps0]) (fun b => m (c, b))
/-- The same, read at one TensorCore buffer. -/
abbrev atEntry (c : Dev nD) (b : Ref sig .tc) : Buf (Elt F) ((c : Thread nD τ).loc b) := entry m c (Proc.devRef .tc b)

/-- No host operation allocates. -/
theorem before_alloc_free : (hostOps0 : List (HloOp τ sig (Elt F))).Forall fun op => op.fresh = ∅ := by
  simp only [List.Forall]; repeat' constructor
theorem after_alloc_free : (hostOps1 : List (HloOp τ sig (Elt F))).Forall fun op => op.fresh = ∅ := by
  simp only [List.Forall]; repeat' constructor

/-- @main is the host operations before the call, the call, and the transpose after it; run from the launch
    memory it reaches the call at `atEntry` and is continued by the transpose. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_alloc_free) main_chain

/-- The transpose after the call touches only buffers that outlive the region, -/
theorem tail_refs : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
/-- allocates nothing, -/
theorem tail_alloc_free : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp after_alloc_free) op hop
/-- and writes none of the five arrays the call's windows stage (it writes the final result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w; fin_cases w <;> simp only [StableHlo.unary_writes, Finset.mem_singleton] <;> exact StableHlo.devRef_ne_of_ne (by decide)

/-! ## The argument arrays are not written -/

/-- No host operation before the call writes argument 0: the region finds it as launched. -/
theorem entry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-- Nor does the transpose after it, and argument 0 is no array of the call's windows: it ends as launched. -/
theorem exit_arg0 (dats : (p : Fin _) → (c : Dev nD) → Dat τ (Elt F) Unit ℕ (UR sig nD τ) ℕ (cfgs p) c) (c : Dev nD) :
    Pipeline.afterTail₀ cfgs dats 0 (entry m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, Finset.mem_singleton]
      exact StableHlo.devRef_ne_of_ne (by decide))),
    Pipeline.withArrays_of_ne _ c (entry m c) _ main_arg0 (by exact (by decide : ∀ w, Pipeline.arrRef spec0 w ≠ main_arg0))]
  exact entry_arg0 m c

/-- No host operation before the call writes argument 1: the region finds it as launched. -/
theorem entry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-- Nor does the transpose after it, and argument 1 is no array of the call's windows: it ends as launched. -/
theorem exit_arg1 (dats : (p : Fin _) → (c : Dev nD) → Dat τ (Elt F) Unit ℕ (UR sig nD τ) ℕ (cfgs p) c) (c : Dev nD) :
    Pipeline.afterTail₀ cfgs dats 0 (entry m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, Finset.mem_singleton]
      exact StableHlo.devRef_ne_of_ne (by decide))),
    Pipeline.withArrays_of_ne _ c (entry m c) _ main_arg1 (by exact (by decide : ∀ w, Pipeline.arrRef spec0 w ≠ main_arg1))]
  exact entry_arg1 m c

/-- No host operation before the call writes argument 2: the region finds it as launched. -/
theorem entry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-- Nor does the transpose after it, and argument 2 is no array of the call's windows: it ends as launched. -/
theorem exit_arg2 (dats : (p : Fin _) → (c : Dev nD) → Dat τ (Elt F) Unit ℕ (UR sig nD τ) ℕ (cfgs p) c) (c : Dev nD) :
    Pipeline.afterTail₀ cfgs dats 0 (entry m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.unary_writes, Finset.mem_singleton]
      exact StableHlo.devRef_ne_of_ne (by decide))),
    Pipeline.withArrays_of_ne _ c (entry m c) _ main_arg2 (by exact (by decide : ∀ w, Pipeline.arrRef spec0 w ≠ main_arg2))]
  exact entry_arg2 m c

/-- No host operation before the call writes argument 3: the region finds it as launched. -/
theorem entry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-- Nor does the transpose after it, and argument 3 is no array of the call's windows: it ends as launched. -/
theorem exit_arg3 (dats : (p : Fin _) → (c : Dev nD) → Dat τ (Elt F) Unit ℕ (UR sig nD τ) ℕ (cfgs p) c) (c : Dev nD) :
    Pipeline.afterTail₀ cfgs dats 0 (entry m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.unary_writes, Finset.mem_singleton]
      exact StableHlo.devRef_ne_of_ne (by decide))),
    Pipeline.withArrays_of_ne _ c (entry m c) _ main_arg3 (by exact (by decide : ∀ w, Pipeline.arrRef spec0 w ≠ main_arg3))]
  exact entry_arg3 m c

/-- No host operation before the call writes argument 4: the region finds it as launched. -/
theorem entry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-- Nor does the transpose after it, and argument 4 is no array of the call's windows: it ends as launched. -/
theorem exit_arg4 (dats : (p : Fin _) → (c : Dev nD) → Dat τ (Elt F) Unit ℕ (UR sig nD τ) ℕ (cfgs p) c) (c : Dev nD) :
    Pipeline.afterTail₀ cfgs dats 0 (entry m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.unary_writes, Finset.mem_singleton]
      exact StableHlo.devRef_ne_of_ne (by decide))),
    Pipeline.withArrays_of_ne _ c (entry m c) _ main_arg4 (by exact (by decide : ∀ w, Pipeline.arrRef spec0 w ≠ main_arg4))]
  exact entry_arg4 m c

/-! ## From a run of the region to the frame -/

/-- Any run of @main whose post says, for proof data over the entry memory, what the library's frame post says,
    leaves the five argument arrays as launched: none is an array of the call's windows, so each is read by the post's
    clause for the buffers that bypass the region. -/
theorem args_kept (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entry m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (exit_arg0 m dats c),
     ((h c).2 main_arg1 (Pipeline.mem_restRefs_of main_arg1 (by decide) (by decide))).trans (exit_arg1 m dats c),
     ((h c).2 main_arg2 (Pipeline.mem_restRefs_of main_arg2 (by decide) (by decide))).trans (exit_arg2 m dats c),
     ((h c).2 main_arg3 (Pipeline.mem_restRefs_of main_arg3 (by decide) (by decide))).trans (exit_arg3 m dats c),
     ((h c).2 main_arg4 (Pipeline.mem_restRefs_of main_arg4 (by decide) (by decide))).trans (exit_arg4 m dats c)⟩) h

/-! ## What the body finds and what it leaves -/

/-- Window `w`'s block at grid point `t`, cut out of its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's staging buffer holds its block at every point — also where the pipeline does not fetch it, the
    block index not having moved — for any proof data over the entry memory whose body leaves the block in place. -/
theorem found0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's staging buffer holds its block at every point — also where the pipeline does not fetch it, the
    block index not having moved — for any proof data over the entry memory whose body leaves the block in place. -/
theorem found1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's staging buffer holds its block at every point — also where the pipeline does not fetch it, the
    block index not having moved — for any proof data over the entry memory whose body leaves the block in place. -/
theorem found2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's staging buffer holds its block at every point — also where the pipeline does not fetch it, the
    block index not having moved — for any proof data over the entry memory whose body leaves the block in place. -/
theorem found3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- The 64 × 1024 tile of the f32 row block the body loads: columns `1024·rt` onward. -/
abbrev rTile (i : grid0.Coords) : Rect S1x64x4096 := Rect.unit (s := S1x64x4096) (k0_off1 i) S1x64x1024.size (k0_off1_inb i)
/-- The whole row block, the whole weight tile, the whole 64 × 1024 tile. -/
abbrev rRows : Rect S1x64x4096 := Rect.unit (s := S1x64x4096) ![0, 0, 0] S1x64x4096.size inb_S1x64x4096_S1x64x4096_0_0_0
abbrev rWeight : Rect S1x4096x1024 := Rect.unit (s := S1x4096x1024) ![0, 0, 0] S1x4096x1024.size inb_S1x4096x1024_S1x4096x1024_0_0_0
abbrev rOut : Rect S1x64x1024 := Rect.unit (s := S1x64x1024) ![0, 0, 0] S1x64x1024.size inb_S1x64x1024_S1x64x1024_0_0_0

/-- The output tile's buffer after the body, from the four input blocks: its one store, of the body's value at what
    the four loads read. -/
def tileOut (i : grid0.Coords) (x0 : Vec F S1x64x4096 .f32) (x1 : Vec F S1x64x4096 .bf16) (x2 : Vec F S1x64x1024 .f32)
    (x3 : Vec F S1x4096x1024 .bf16) : Vec F S1x64x1024 .f32 :=
  View.canon [⟨rOut, k0_pay1 (View.ld x0 (rTile i)) (View.ld x1 rRows) (View.ld x3 rWeight) (View.ld x2 rOut)⟩]

/-- The store is of the whole tile. -/
theorem tile_covered (p0 : Vec F S1x64x1024 .f32) (y : S1x64x1024.Idx) :
    ∃ pc ∈ ([⟨rOut, p0⟩] : List (View.Piece (Elt F) S1x64x1024 .f32)), y ∈ pc.1.set :=
  View.cover_of_tiled [⟨rOut, p0⟩] S1x64x1024.size (by rfl) y

set_option maxHeartbeats 1000000 in
/-- The kernel body on whole staging buffers — the four inputs' at given contents, the output's at anything — runs,
    leaves the inputs as they were and the output's buffer at `tileOut` of them. -/
theorem tile_triple (c : Dev nD) (E : Set ℕ) (i : grid0.Coords)
    (a0 : Memref sig .tc .vmem S1x64x4096 .f32) (h0 : a0.IsWhole) (a1 : Memref sig .tc .vmem S1x64x4096 .bf16) (h1 : a1.IsWhole)
    (a2 : Memref sig .tc .vmem S1x64x1024 .f32) (h2 : a2.IsWhole) (a3 : Memref sig .tc .vmem S1x4096x1024 .bf16) (h3 : a3.IsWhole)
    (a4 : Memref sig .tc .vmem S1x64x1024 .f32) (h4 : a4.IsWhole)
    (x0 : Vec F S1x64x4096 .f32) (x1 : Vec F S1x64x4096 .bf16) (x2 : Vec F S1x64x1024 .f32) (x3 : Vec F S1x4096x1024 .bf16)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare (tileOut i x0 x1 x2 x3)) -∗ K ⟨⟩))
      ⊢ wp frame (wpE (defs₀ (F := F)) Variants.none c none) E (cc0__esn_kernel i a0 h0 a1 h1 a2 h2 a3 h3 a4 h4) K := by
  simp only [cc0__esn_kernel_eq_skeleton]; unfold cc0__esn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_covered _)

/-! ## The proof data of the pipeline -/

/-- On core `c`: the five arrays as the region finds them; after the body at point `t` each input's buffer still at its
    block and the output's at `tileOut` of the four blocks; nothing else held, nothing owed, full shares. -/
def regionData (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => tileOut (grid0.coords t) (blockAt m c 0 t) (blockAt m c 1 t) (blockAt m c 2 t) (blockAt m c 3 t)
  Φ _ := Pipeline.ΦA spec0 c
  q _ := fullShare
  owed _ := 0

theorem arrays_entry (c : Dev nD) (w : Fin cfg0.W) : (regionData m 0 c).A w = atEntry m c (Pipeline.arrRef spec0 w) := by
  dsimp only [regionData]

theorem left0 (c : Dev nD) (t : Fin cfg0.N) : (regionData m 0 c).after 0 t = blockAt m c 0 t := by dsimp only [regionData]
theorem left1 (c : Dev nD) (t : Fin cfg0.N) : (regionData m 0 c).after 1 t = blockAt m c 1 t := by dsimp only [regionData]
theorem left2 (c : Dev nD) (t : Fin cfg0.N) : (regionData m 0 c).after 2 t = blockAt m c 2 t := by dsimp only [regionData]
theorem left3 (c : Dev nD) (t : Fin cfg0.N) : (regionData m 0 c).after 3 t = blockAt m c 3 t := by dsimp only [regionData]
theorem left4 (c : Dev nD) (t : Fin cfg0.N) : (regionData m 0 c).after 4 t
    = tileOut (grid0.coords t) (blockAt m c 0 t) (blockAt m c 1 t) (blockAt m c 2 t) (blockAt m c 3 t) := by dsimp only [regionData]

theorem finds0 (c : Dev nD) (t : Fin cfg0.N) (d) : (regionData m 0 c).before 0 t d = blockAt m c 0 t :=
  found0 m (regionData m 0 c) (arrays_entry m c 0) (left0 m c) t d
theorem finds1 (c : Dev nD) (t : Fin cfg0.N) (d) : (regionData m 0 c).before 1 t d = blockAt m c 1 t :=
  found1 m (regionData m 0 c) (arrays_entry m c 1) (left1 m c) t d
theorem finds2 (c : Dev nD) (t : Fin cfg0.N) (d) : (regionData m 0 c).before 2 t d = blockAt m c 2 t :=
  found2 m (regionData m 0 c) (arrays_entry m c 2) (left2 m c) t d
theorem finds3 (c : Dev nD) (t : Fin cfg0.N) (d) : (regionData m 0 c).before 3 t d = blockAt m c 3 t :=
  found3 m (regionData m 0 c) (arrays_entry m c 3) (left3 m c) t d

/-! ## The body at every point -/

/-- What the pipeline hands the body at point `t`, window by window, -/
def handed (c : Dev nD) (t : Fin cfg0.N) : sProp 𝕄 :=
  iprop((regionData m 0 c).Φ t.castSucc ∗ (regionData m 0 c).owesAt () t.castSucc
    ∗ (∃ d, owns (c : Thread nD τ) (st0_0 t) fullShare ((regionData m 0 c).before 0 t d))
    ∗ (∃ d, owns (c : Thread nD τ) (st0_1 t) fullShare ((regionData m 0 c).before 1 t d))
    ∗ (∃ d, owns (c : Thread nD τ) (st0_2 t) fullShare ((regionData m 0 c).before 2 t d))
    ∗ (∃ d, owns (c : Thread nD τ) (st0_3 t) fullShare ((regionData m 0 c).before 3 t d))
    ∗ (∃ d, owns (c : Thread nD τ) (st0_4 t) fullShare ((regionData m 0 c).before 4 t d)))

/-- and what it must hand back. -/
def returned (c : Dev nD) (t : Fin cfg0.N) : sProp 𝕄 :=
  iprop((regionData m 0 c).Φ t.succ ∗ (regionData m 0 c).owesAt () t.succ
    ∗ owns (c : Thread nD τ) (st0_0 t) fullShare ((regionData m 0 c).after 0 t)
    ∗ owns (c : Thread nD τ) (st0_1 t) fullShare ((regionData m 0 c).after 1 t)
    ∗ owns (c : Thread nD τ) (st0_2 t) fullShare ((regionData m 0 c).after 2 t)
    ∗ owns (c : Thread nD τ) (st0_3 t) fullShare ((regionData m 0 c).after 3 t)
    ∗ owns (c : Thread nD τ) (st0_4 t) fullShare ((regionData m 0 c).after 4 t))

/-- The body at any point: the inputs' buffers hold their blocks, so `tile_triple` applies; the rest passes through. -/
theorem body_at (c : Dev nD) (t : Fin cfg0.N) :
    handed m c t ⊢ wp frame (wpE (defs₀ (F := F)) Variants.none c none) Set.univ (bodyAt0 t) (fun _ => returned m c t) := by
  unfold handed returned bodyAt0
  simp only [finds0, finds1, finds2, finds3]
  rw [show (regionData m 0 c).Φ t.succ = (regionData m 0 c).Φ t.castSucc from rfl,
    show (regionData m 0 c).owesAt () t.succ = (regionData m 0 c).owesAt () t.castSucc from rfl,
    left0, left1, left2, left3, left4]
  iintro ⟨HΦ, Ho, ⟨%d0, H0⟩, ⟨%d1, H1⟩, ⟨%d2, H2⟩, ⟨%d3, H3⟩, ⟨%d4, H4⟩⟩
  iapply (tile_triple c Set.univ (grid0.coords t) _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation. -/
theorem body_everywhere (c : Dev nD) : BodyObligation (regionData (F := F) m 0 c) (defs₀ (F := F)) Variants.none () Set.univ := fun t => by
  rw [bigSep_W0, bigSep_W0]
  exact body_at m c t

/-! ## The run -/

set_option backward.isDefEq.respectTransparency.types false in
/-- Every weakly fair execution of @main from `m` terminates without a fault; at the end each of the five staged arrays
    holds what the library computes from `regionData` (the result array: block by block the body's store) and every
    other buffer what the transpose after the region leaves. -/
theorem run_region : θ_run defs (onTc (τ := τ) (main (F := F))) (s₀ m ρ)
    (Pipeline.FramePost cfgs (regionData m) 0 (Pipeline.afterTail₀ cfgs (regionData m) 0 (entry m) [hostOps1])) :=
  Pipeline.θ_run_frame_around cfgs (regionData m) (0 : Fin 1) launch0 defs₀ Variants.none m ρ main
    (hbody := fun c => (body_everywhere m c).loose) (hshare := fun c => (regionData m 0 c).share_full fun _ => rfl)
    (howed := fun _ _ => rfl) (V₀ := entry m) (opss := [hostOps1]) (hsub := tail_refs) (hfresh := tail_alloc_free) (hkeep := tail_keeps)
    (hmain := main_around m Variants.none) (hA := arrays_entry m) (hΦ := fun _ _ => rfl)

/-- The frame: @main runs and leaves its five arguments as launched. -/
theorem args_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  args_kept m ρ (regionData m) (run_region m ρ)

end Cert.Kernel.Region

end
-- ==== Proof.KernelIdealRegion.lean ====
/-
  The run of `KernelIdeal`'s @main around its one pallas_call, at any float instance: thirty-five host
  operations (the index normalisation, the scatter-add that densifies the sparse matrix, the
  transposes and the two roundings to bf16), the region over its 8 × 4 grid, and one transpose after
  it.  Each grid point (c, rt) computes one 64 × 1024 tile of
      0.6 · tanh(res_c · WT_c + proj_c + 1.6) + 0.4 · res_c
  from the whole 64 × 4096 row block of chunk c (as f32 and as bf16), the tile of the projection
  and the 4096 × 1024 column tile of the dense weight; it writes nothing else and keeps nothing
  between points, so after the region the result array holds, block by block, the body's one
  store, and every argument array is as it was launched.
-/
import proofs.«412699_j45578192945261_2_alg».proof.Proof.Gen.KernelIdeal.Launch
import proofs.«412699_j45578192945261_2_alg».proof.Proof.Gen.KernelIdeal.Skeleton
import proofs.«412699_j45578192945261_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the region is entered with -/

/-- Core `c`'s buffers when the pallas_call starts: the launch memory after the host operations that precede it. -/
abbrev entry (c : Dev nD) : Valuation τ sig (Elt F) := StableHlo.after (List.flatten [hostOps0]) (fun b => m (c, b))
/-- The same, read at one TensorCore buffer. -/
abbrev atEntry (c : Dev nD) (b : Ref sig .tc) : Buf (Elt F) ((c : Thread nD τ).loc b) := entry m c (Proc.devRef .tc b)

/-- No host operation allocates. -/
theorem before_alloc_free : (hostOps0 : List (HloOp τ sig (Elt F))).Forall fun op => op.fresh = ∅ := by
  simp only [List.Forall]; repeat' constructor
theorem after_alloc_free : (hostOps1 : List (HloOp τ sig (Elt F))).Forall fun op => op.fresh = ∅ := by
  simp only [List.Forall]; repeat' constructor

/-- @main is the host operations before the call, the call, and the transpose after it; run from the launch
    memory it reaches the call at `atEntry` and is continued by the transpose. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_alloc_free) main_chain

/-- The transpose after the call touches only buffers that outlive the region, -/
theorem tail_refs : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
/-- allocates nothing, -/
theorem tail_alloc_free : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp after_alloc_free) op hop
/-- and writes none of the five arrays the call's windows stage (it writes the final result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w; fin_cases w <;> simp only [StableHlo.unary_writes, Finset.mem_singleton] <;> exact StableHlo.devRef_ne_of_ne (by decide)

/-! ## The argument arrays are not written -/

/-- No host operation before the call writes argument 0: the region finds it as launched. -/
theorem entry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-- Nor does the transpose after it, and argument 0 is no array of the call's windows: it ends as launched. -/
theorem exit_arg0 (dats : (p : Fin _) → (c : Dev nD) → Dat τ (Elt F) Unit ℕ (UR sig nD τ) ℕ (cfgs p) c) (c : Dev nD) :
    Pipeline.afterTail₀ cfgs dats 0 (entry m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, Finset.mem_singleton]
      exact StableHlo.devRef_ne_of_ne (by decide))),
    Pipeline.withArrays_of_ne _ c (entry m c) _ main_arg0 (by exact (by decide : ∀ w, Pipeline.arrRef spec0 w ≠ main_arg0))]
  exact entry_arg0 m c

/-- No host operation before the call writes argument 1: the region finds it as launched. -/
theorem entry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-- Nor does the transpose after it, and argument 1 is no array of the call's windows: it ends as launched. -/
theorem exit_arg1 (dats : (p : Fin _) → (c : Dev nD) → Dat τ (Elt F) Unit ℕ (UR sig nD τ) ℕ (cfgs p) c) (c : Dev nD) :
    Pipeline.afterTail₀ cfgs dats 0 (entry m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, Finset.mem_singleton]
      exact StableHlo.devRef_ne_of_ne (by decide))),
    Pipeline.withArrays_of_ne _ c (entry m c) _ main_arg1 (by exact (by decide : ∀ w, Pipeline.arrRef spec0 w ≠ main_arg1))]
  exact entry_arg1 m c

/-- No host operation before the call writes argument 2: the region finds it as launched. -/
theorem entry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-- Nor does the transpose after it, and argument 2 is no array of the call's windows: it ends as launched. -/
theorem exit_arg2 (dats : (p : Fin _) → (c : Dev nD) → Dat τ (Elt F) Unit ℕ (UR sig nD τ) ℕ (cfgs p) c) (c : Dev nD) :
    Pipeline.afterTail₀ cfgs dats 0 (entry m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.unary_writes, Finset.mem_singleton]
      exact StableHlo.devRef_ne_of_ne (by decide))),
    Pipeline.withArrays_of_ne _ c (entry m c) _ main_arg2 (by exact (by decide : ∀ w, Pipeline.arrRef spec0 w ≠ main_arg2))]
  exact entry_arg2 m c

/-- No host operation before the call writes argument 3: the region finds it as launched. -/
theorem entry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-- Nor does the transpose after it, and argument 3 is no array of the call's windows: it ends as launched. -/
theorem exit_arg3 (dats : (p : Fin _) → (c : Dev nD) → Dat τ (Elt F) Unit ℕ (UR sig nD τ) ℕ (cfgs p) c) (c : Dev nD) :
    Pipeline.afterTail₀ cfgs dats 0 (entry m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.unary_writes, Finset.mem_singleton]
      exact StableHlo.devRef_ne_of_ne (by decide))),
    Pipeline.withArrays_of_ne _ c (entry m c) _ main_arg3 (by exact (by decide : ∀ w, Pipeline.arrRef spec0 w ≠ main_arg3))]
  exact entry_arg3 m c

/-- No host operation before the call writes argument 4: the region finds it as launched. -/
theorem entry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-- Nor does the transpose after it, and argument 4 is no array of the call's windows: it ends as launched. -/
theorem exit_arg4 (dats : (p : Fin _) → (c : Dev nD) → Dat τ (Elt F) Unit ℕ (UR sig nD τ) ℕ (cfgs p) c) (c : Dev nD) :
    Pipeline.afterTail₀ cfgs dats 0 (entry m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.unary_writes, Finset.mem_singleton]
      exact StableHlo.devRef_ne_of_ne (by decide))),
    Pipeline.withArrays_of_ne _ c (entry m c) _ main_arg4 (by exact (by decide : ∀ w, Pipeline.arrRef spec0 w ≠ main_arg4))]
  exact entry_arg4 m c

/-! ## From a run of the region to the frame -/

/-- Any run of @main whose post says, for proof data over the entry memory, what the library's frame post says,
    leaves the five argument arrays as launched: none is an array of the call's windows, so each is read by the post's
    clause for the buffers that bypass the region. -/
theorem args_kept (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entry m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (exit_arg0 m dats c),
     ((h c).2 main_arg1 (Pipeline.mem_restRefs_of main_arg1 (by decide) (by decide))).trans (exit_arg1 m dats c),
     ((h c).2 main_arg2 (Pipeline.mem_restRefs_of main_arg2 (by decide) (by decide))).trans (exit_arg2 m dats c),
     ((h c).2 main_arg3 (Pipeline.mem_restRefs_of main_arg3 (by decide) (by decide))).trans (exit_arg3 m dats c),
     ((h c).2 main_arg4 (Pipeline.mem_restRefs_of main_arg4 (by decide) (by decide))).trans (exit_arg4 m dats c)⟩) h

/-! ## What the body finds and what it leaves -/

/-- Window `w`'s block at grid point `t`, cut out of its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's staging buffer holds its block at every point — also where the pipeline does not fetch it, the
    block index not having moved — for any proof data over the entry memory whose body leaves the block in place. -/
theorem found0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's staging buffer holds its block at every point — also where the pipeline does not fetch it, the
    block index not having moved — for any proof data over the entry memory whose body leaves the block in place. -/
theorem found1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's staging buffer holds its block at every point — also where the pipeline does not fetch it, the
    block index not having moved — for any proof data over the entry memory whose body leaves the block in place. -/
theorem found2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's staging buffer holds its block at every point — also where the pipeline does not fetch it, the
    block index not having moved — for any proof data over the entry memory whose body leaves the block in place. -/
theorem found3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- The 64 × 1024 tile of the f32 row block the body loads: columns `1024·rt` onward. -/
abbrev rTile (i : grid0.Coords) : Rect S1x64x4096 := Rect.unit (s := S1x64x4096) (k0_off1 i) S1x64x1024.size (k0_off1_inb i)
/-- The whole row block, the whole weight tile, the whole 64 × 1024 tile. -/
abbrev rRows : Rect S1x64x4096 := Rect.unit (s := S1x64x4096) ![0, 0, 0] S1x64x4096.size inb_S1x64x4096_S1x64x4096_0_0_0
abbrev rWeight : Rect S1x4096x1024 := Rect.unit (s := S1x4096x1024) ![0, 0, 0] S1x4096x1024.size inb_S1x4096x1024_S1x4096x1024_0_0_0
abbrev rOut : Rect S1x64x1024 := Rect.unit (s := S1x64x1024) ![0, 0, 0] S1x64x1024.size inb_S1x64x1024_S1x64x1024_0_0_0

/-- The output tile's buffer after the body, from the four input blocks: its one store, of the body's value at what
    the four loads read. -/
def tileOut (i : grid0.Coords) (x0 : Vec F S1x64x4096 .f32) (x1 : Vec F S1x64x4096 .bf16) (x2 : Vec F S1x64x1024 .f32)
    (x3 : Vec F S1x4096x1024 .bf16) : Vec F S1x64x1024 .f32 :=
  View.canon [⟨rOut, k0_pay1 (View.ld x0 (rTile i)) (View.ld x1 rRows) (View.ld x3 rWeight) (View.ld x2 rOut)⟩]

/-- The store is of the whole tile. -/
theorem tile_covered (p0 : Vec F S1x64x1024 .f32) (y : S1x64x1024.Idx) :
    ∃ pc ∈ ([⟨rOut, p0⟩] : List (View.Piece (Elt F) S1x64x1024 .f32)), y ∈ pc.1.set :=
  View.cover_of_tiled [⟨rOut, p0⟩] S1x64x1024.size (by rfl) y

set_option maxHeartbeats 1000000 in
/-- The kernel body on whole staging buffers — the four inputs' at given contents, the output's at anything — runs,
    leaves the inputs as they were and the output's buffer at `tileOut` of them. -/
theorem tile_triple (c : Dev nD) (E : Set ℕ) (i : grid0.Coords)
    (a0 : Memref sig .tc .vmem S1x64x4096 .f32) (h0 : a0.IsWhole) (a1 : Memref sig .tc .vmem S1x64x4096 .bf16) (h1 : a1.IsWhole)
    (a2 : Memref sig .tc .vmem S1x64x1024 .f32) (h2 : a2.IsWhole) (a3 : Memref sig .tc .vmem S1x4096x1024 .bf16) (h3 : a3.IsWhole)
    (a4 : Memref sig .tc .vmem S1x64x1024 .f32) (h4 : a4.IsWhole)
    (x0 : Vec F S1x64x4096 .f32) (x1 : Vec F S1x64x4096 .bf16) (x2 : Vec F S1x64x1024 .f32) (x3 : Vec F S1x4096x1024 .bf16)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare (tileOut i x0 x1 x2 x3)) -∗ K ⟨⟩))
      ⊢ wp frame (wpE (defs₀ (F := F)) Variants.none c none) E (cc0__esn_kernel i a0 h0 a1 h1 a2 h2 a3 h3 a4 h4) K := by
  simp only [cc0__esn_kernel_eq_skeleton]; unfold cc0__esn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_covered _)

/-! ## The proof data of the pipeline -/

/-- On core `c`: the five arrays as the region finds them; after the body at point `t` each input's buffer still at its
    block and the output's at `tileOut` of the four blocks; nothing else held, nothing owed, full shares. -/
def regionData (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => tileOut (grid0.coords t) (blockAt m c 0 t) (blockAt m c 1 t) (blockAt m c 2 t) (blockAt m c 3 t)
  Φ _ := Pipeline.ΦA spec0 c
  q _ := fullShare
  owed _ := 0

theorem arrays_entry (c : Dev nD) (w : Fin cfg0.W) : (regionData m 0 c).A w = atEntry m c (Pipeline.arrRef spec0 w) := by
  dsimp only [regionData]

theorem left0 (c : Dev nD) (t : Fin cfg0.N) : (regionData m 0 c).after 0 t = blockAt m c 0 t := by dsimp only [regionData]
theorem left1 (c : Dev nD) (t : Fin cfg0.N) : (regionData m 0 c).after 1 t = blockAt m c 1 t := by dsimp only [regionData]
theorem left2 (c : Dev nD) (t : Fin cfg0.N) : (regionData m 0 c).after 2 t = blockAt m c 2 t := by dsimp only [regionData]
theorem left3 (c : Dev nD) (t : Fin cfg0.N) : (regionData m 0 c).after 3 t = blockAt m c 3 t := by dsimp only [regionData]
theorem left4 (c : Dev nD) (t : Fin cfg0.N) : (regionData m 0 c).after 4 t
    = tileOut (grid0.coords t) (blockAt m c 0 t) (blockAt m c 1 t) (blockAt m c 2 t) (blockAt m c 3 t) := by dsimp only [regionData]

theorem finds0 (c : Dev nD) (t : Fin cfg0.N) (d) : (regionData m 0 c).before 0 t d = blockAt m c 0 t :=
  found0 m (regionData m 0 c) (arrays_entry m c 0) (left0 m c) t d
theorem finds1 (c : Dev nD) (t : Fin cfg0.N) (d) : (regionData m 0 c).before 1 t d = blockAt m c 1 t :=
  found1 m (regionData m 0 c) (arrays_entry m c 1) (left1 m c) t d
theorem finds2 (c : Dev nD) (t : Fin cfg0.N) (d) : (regionData m 0 c).before 2 t d = blockAt m c 2 t :=
  found2 m (regionData m 0 c) (arrays_entry m c 2) (left2 m c) t d
theorem finds3 (c : Dev nD) (t : Fin cfg0.N) (d) : (regionData m 0 c).before 3 t d = blockAt m c 3 t :=
  found3 m (regionData m 0 c) (arrays_entry m c 3) (left3 m c) t d

/-! ## The body at every point -/

/-- What the pipeline hands the body at point `t`, window by window, -/
def handed (c : Dev nD) (t : Fin cfg0.N) : sProp 𝕄 :=
  iprop((regionData m 0 c).Φ t.castSucc ∗ (regionData m 0 c).owesAt () t.castSucc
    ∗ (∃ d, owns (c : Thread nD τ) (st0_0 t) fullShare ((regionData m 0 c).before 0 t d))
    ∗ (∃ d, owns (c : Thread nD τ) (st0_1 t) fullShare ((regionData m 0 c).before 1 t d))
    ∗ (∃ d, owns (c : Thread nD τ) (st0_2 t) fullShare ((regionData m 0 c).before 2 t d))
    ∗ (∃ d, owns (c : Thread nD τ) (st0_3 t) fullShare ((regionData m 0 c).before 3 t d))
    ∗ (∃ d, owns (c : Thread nD τ) (st0_4 t) fullShare ((regionData m 0 c).before 4 t d)))

/-- and what it must hand back. -/
def returned (c : Dev nD) (t : Fin cfg0.N) : sProp 𝕄 :=
  iprop((regionData m 0 c).Φ t.succ ∗ (regionData m 0 c).owesAt () t.succ
    ∗ owns (c : Thread nD τ) (st0_0 t) fullShare ((regionData m 0 c).after 0 t)
    ∗ owns (c : Thread nD τ) (st0_1 t) fullShare ((regionData m 0 c).after 1 t)
    ∗ owns (c : Thread nD τ) (st0_2 t) fullShare ((regionData m 0 c).after 2 t)
    ∗ owns (c : Thread nD τ) (st0_3 t) fullShare ((regionData m 0 c).after 3 t)
    ∗ owns (c : Thread nD τ) (st0_4 t) fullShare ((regionData m 0 c).after 4 t))

/-- The body at any point: the inputs' buffers hold their blocks, so `tile_triple` applies; the rest passes through. -/
theorem body_at (c : Dev nD) (t : Fin cfg0.N) :
    handed m c t ⊢ wp frame (wpE (defs₀ (F := F)) Variants.none c none) Set.univ (bodyAt0 t) (fun _ => returned m c t) := by
  unfold handed returned bodyAt0
  simp only [finds0, finds1, finds2, finds3]
  rw [show (regionData m 0 c).Φ t.succ = (regionData m 0 c).Φ t.castSucc from rfl,
    show (regionData m 0 c).owesAt () t.succ = (regionData m 0 c).owesAt () t.castSucc from rfl,
    left0, left1, left2, left3, left4]
  iintro ⟨HΦ, Ho, ⟨%d0, H0⟩, ⟨%d1, H1⟩, ⟨%d2, H2⟩, ⟨%d3, H3⟩, ⟨%d4, H4⟩⟩
  iapply (tile_triple c Set.univ (grid0.coords t) _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation. -/
theorem body_everywhere (c : Dev nD) : BodyObligation (regionData (F := F) m 0 c) (defs₀ (F := F)) Variants.none () Set.univ := fun t => by
  rw [bigSep_W0, bigSep_W0]
  exact body_at m c t

/-! ## The run -/

set_option backward.isDefEq.respectTransparency.types false in
/-- Every weakly fair execution of @main from `m` terminates without a fault; at the end each of the five staged arrays
    holds what the library computes from `regionData` (the result array: block by block the body's store) and every
    other buffer what the transpose after the region leaves. -/
theorem run_region : θ_run defs (onTc (τ := τ) (main (F := F))) (s₀ m ρ)
    (Pipeline.FramePost cfgs (regionData m) 0 (Pipeline.afterTail₀ cfgs (regionData m) 0 (entry m) [hostOps1])) :=
  Pipeline.θ_run_frame_around cfgs (regionData m) (0 : Fin 1) launch0 defs₀ Variants.none m ρ main
    (hbody := fun c => (body_everywhere m c).loose) (hshare := fun c => (regionData m 0 c).share_full fun _ => rfl)
    (howed := fun _ _ => rfl) (V₀ := entry m) (opss := [hostOps1]) (hsub := tail_refs) (hfresh := tail_alloc_free) (hkeep := tail_keeps)
    (hmain := main_around m Variants.none) (hA := arrays_entry m) (hΦ := fun _ _ => rfl)

/-- The frame: @main runs and leaves its five arguments as launched. -/
theorem args_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  args_kept m ρ (regionData m) (run_region m ρ)

end Cert.KernelIdeal.Region

end
-- ==== Proof.TileValue.lean ====
import proofs.«412699_j45578192945261_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
# The kernel body's stored value at an index, at the ideal values

The body of the kernel computes, from the four blocks it loads, one block of shape [1, 64, 1024]:
with `x` the [64, 4096] block, `w` the [4096, 1024] block, `b` the [64, 1024] block and `s` the old
[64, 1024] tile, the stored value at row `p` and column `q` is

  0.6 · tanh ((∑ₖ x[p, k] · w[k, q]) + b[p, q] + 1.6) + 0.4 · s[p, q],

the three decimal constants being the single-precision words the program carries. Every operation but
the matrix product acts elementwise or only renames indices (a leading unit axis dropped or added),
so reading the value at an index goes through them one by one; the matrix product into a zero
accumulator is the sum over its one contracted axis of the operands' products.
-/

open scoped BigOperators

namespace Cert.KernelIdeal.Tile
open Idealize.ShloMosaic Idealize.ShloMosaic.ValueIdx Cert.KernelIdeal Cert.KernelIdeal.Gen

/-! ## The matrix product's operand indices, one axis at a time

The product contracts the left operand's axis 1 with the right operand's axis 0; the left operand's
axis 0 is the result's row and the right operand's axis 1 is the result's column. -/

/-- The left operand's row coordinate is the result's row. -/
theorem lhs_mm_0 (i : S64x1024.Idx) (c : dot_S64x4096_S4096x1024_S64x1024_1_0_0_1_n_n.contr.Idx) :
    (dot_S64x4096_S4096x1024_S64x1024_1_0_0_1_n_n.lhsIdx i c 0).val = (i 0).val := by
  unfold DotDims.lhsIdx
  rw [dif_neg (show ¬(0 : Fin S64x4096.rank) ∈ dot_S64x4096_S4096x1024_S64x1024_1_0_0_1_n_n.lhsBatch by decide),
    dif_pos (show (0 : Fin S64x4096.rank) ∈ dot_S64x4096_S4096x1024_S64x1024_1_0_0_1_n_n.lhsNonContracting by decide)]
  rfl

/-- The left operand's column coordinate is the contraction position. -/
theorem lhs_mm_1 (i : S64x1024.Idx) (c : dot_S64x4096_S4096x1024_S64x1024_1_0_0_1_n_n.contr.Idx) :
    (dot_S64x4096_S4096x1024_S64x1024_1_0_0_1_n_n.lhsIdx i c 1).val = (c ⟨0, by decide⟩).val :=
  dot_S64x4096_S4096x1024_S64x1024_1_0_0_1_n_n.lhsIdx_val_of_single rfl i c

/-- The right operand's row coordinate is the contraction position. -/
theorem rhs_mm_0 (i : S64x1024.Idx) (c : dot_S64x4096_S4096x1024_S64x1024_1_0_0_1_n_n.contr.Idx) :
    (dot_S64x4096_S4096x1024_S64x1024_1_0_0_1_n_n.rhsIdx i c 0).val = (c ⟨0, by decide⟩).val :=
  dot_S64x4096_S4096x1024_S64x1024_1_0_0_1_n_n.rhsIdx_val_of_single rfl i c

/-- The right operand's column coordinate is the result's column. -/
theorem rhs_mm_1 (i : S64x1024.Idx) (c : dot_S64x4096_S4096x1024_S64x1024_1_0_0_1_n_n.contr.Idx) :
    (dot_S64x4096_S4096x1024_S64x1024_1_0_0_1_n_n.rhsIdx i c 1).val = (i 1).val := by
  unfold DotDims.rhsIdx
  rw [dif_neg (show ¬(1 : Fin S4096x1024.rank) ∈ dot_S64x4096_S4096x1024_S64x1024_1_0_0_1_n_n.rhsBatch by decide),
    dif_pos (show (1 : Fin S4096x1024.rank) ∈ dot_S64x4096_S4096x1024_S64x1024_1_0_0_1_n_n.rhsNonContracting by decide)]
  rfl

/-! ## The matrix product at an index -/

/-- Into the zero accumulator, the product of a [64, 4096] block with a [4096, 1024] block read at
    `(p, q)` is `∑ₖ x[p, k] · w[k, q]`: the sum over the contraction index, re-indexed by the one
    contracted coordinate. -/
theorem mm_apply (x : FVec Ideal S64x4096 .bf16) (w : FVec Ideal S4096x1024 .bf16) (p : Fin 64) (q : Fin 1024) :
    matmul dot_S64x4096_S4096x1024_S64x1024_1_0_0_1_n_n none x w (constant (F := Ideal) S64x1024 .f32 0x00000000#32) (ix2 p q)
      = (∑ k : Fin 4096, x (ix2 p k) * w (ix2 k q) : EReal) := by
  show FloatOps.matmul dot_S64x4096_S4096x1024_S64x1024_1_0_0_1_n_n none x w (constant (F := Ideal) S64x1024 .f32 0x00000000#32) (ix2 p q) = _
  rw [Ideal.matmul_constant_zero_apply, ← Equiv.sum_comp (contrEquiv1 dot_S64x4096_S4096x1024_S64x1024_1_0_0_1_n_n 4096 rfl rfl).symm]
  refine Finset.sum_congr rfl fun k _ => ?_
  have hk := contrEquiv1_symm_val dot_S64x4096_S4096x1024_S64x1024_1_0_0_1_n_n 4096 rfl rfl k
  have el : dot_S64x4096_S4096x1024_S64x1024_1_0_0_1_n_n.lhsIdx (ix2 p q) ((contrEquiv1 dot_S64x4096_S4096x1024_S64x1024_1_0_0_1_n_n 4096 rfl rfl).symm k) = ix2 p k :=
    funext fun a => Fin.ext (by
      match a with
      | ⟨0, _⟩ => exact lhs_mm_0 _ _
      | ⟨1, _⟩ => exact (lhs_mm_1 _ _).trans hk)
  have er : dot_S64x4096_S4096x1024_S64x1024_1_0_0_1_n_n.rhsIdx (ix2 p q) ((contrEquiv1 dot_S64x4096_S4096x1024_S64x1024_1_0_0_1_n_n 4096 rfl rfl).symm k) = ix2 k q :=
    funext fun a => Fin.ext (by
      match a with
      | ⟨0, _⟩ => exact (rhs_mm_0 _ _).trans hk
      | ⟨1, _⟩ => exact rhs_mm_1 _ _)
  rw [el, er]

/-! ## The stored value at an index -/

/-- The body's stored block read at `(0, p, q)`: the added unit axis is dropped, the sums, products,
    constants and `tanh` read elementwise, each loaded block's leading unit axis is put back, and the
    matrix product is the sum over the contracted coordinate. -/
theorem tile_apply (v3 : Vec Ideal S1x64x1024 .f32) (v5 : Vec Ideal S1x64x4096 .bf16) (v7 : Vec Ideal S1x4096x1024 .bf16)
    (v10 : Vec Ideal S1x64x1024 .f32) (p : Fin 64) (q : Fin 1024) :
    k0_pay1 (F := Ideal) v3 v5 v7 v10 (ix3 (0 : Fin 1) p q)
      = Ideal.ofBits .f32 0x3F19999A#32
          * Ideal.tanh (((∑ k : Fin 4096, v5 (ix3 (0 : Fin 1) p k) * v7 (ix3 (0 : Fin 1) k q)) + v10 (ix3 (0 : Fin 1) p q))
              + Ideal.ofBits .f32 0x3FCCCCCD#32)
        + Ideal.ofBits .f32 0x3ECCCCCD#32 * v3 (ix3 (0 : Fin 1) p q) := by
  unfold k0_pay1
  refine (shapeCast_ab_1ab_apply _ _ (0 : Fin 1) p q).trans ?_
  refine (addf_apply _ _ _).trans ?_
  refine congrArg₂ (· + ·) ?_ ?_
  · -- 0.6 · tanh (…)
    refine (mulf_apply _ _ _).trans ?_
    refine congrArg₂ (· * ·) rfl ?_
    refine congrArg Ideal.tanh ?_
    refine (addf_apply _ _ _).trans ?_
    refine congrArg₂ (· + ·) ?_ rfl
    refine (addf_apply _ _ _).trans ?_
    refine congrArg₂ (· + ·) ?_ ?_
    · refine (mm_apply _ _ p q).trans ?_
      refine Finset.sum_congr rfl fun k _ => ?_
      exact congrArg₂ (· * ·) (shapeCast_1ab_ab_apply v5 _ p k) (shapeCast_1ab_ab_apply v7 _ k q)
    · exact shapeCast_1ab_ab_apply v10 _ p q
  · -- 0.4 · the old tile
    refine (mulf_apply _ _ _).trans ?_
    exact congrArg₂ (· * ·) rfl (shapeCast_1ab_ab_apply v3 _ p q)

end Cert.KernelIdeal.Tile
-- ==== Proof.KernelIdealBlocks.lean ====
/-
  The result array of the pallas_call of `KernelIdeal`, as one function of the four arrays it reads.
  Grid point (chunk, tile) writes the 64 × 1024 block at (chunk, 0, tile) of the [8, 64, 4096] result; the 32
  blocks tile the array, and what a point writes at a block index is `updateAt` at the array index the
  block places it at, its four input blocks being the row blocks, weight tile, projection tile and state tile
  of the same chunk and columns.  So the array ends holding `update` of the staged arrays, index by index.
-/
import proofs.«412699_j45578192945261_2_alg».proof.Proof.KernelIdealRegion
import proofs.«412699_j45578192945261_2_alg».proof.Proof.TileValue
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.Region Cert.KernelIdeal.Tile
open Idealize.ShloMosaic.Pipeline (Dat)
open scoped BigOperators

variable (m : (ℓ : Loc nD τ sig) → Buf (Elt Ideal) ℓ)

theorem zeros3 : (![0, 0, 0] : Fin 3 → Nat) = fun _ => 0 := funext fun a => by fin_cases a <;> rfl

/-- One entry of the result in chunk-major order, from the chunk-major state (exact and rounded), projection and
    dense weight: `0.6 · tanh(∑ₖ st16[c,s,k] · wt[c,k,r] + pj[c,s,r] + 1.6) + 0.4 · st[c,s,r]`. -/
def updateAt (st st16 pj : S8x64x4096.Idx → EReal) (wt : S8x4096x4096.Idx → EReal) (c : Fin 8) (s : Fin 64) (r : Fin 4096) : EReal :=
  Ideal.ofBits .f32 0x3F19999A#32
      * Ideal.tanh (((∑ k : Fin 4096, st16 (ix3 c s k) * wt (ix3 c k r)) + pj (ix3 c s r)) + Ideal.ofBits .f32 0x3FCCCCCD#32)
    + Ideal.ofBits .f32 0x3ECCCCCD#32 * st (ix3 c s r)

/-- The whole chunk-major result. -/
def update (st st16 pj : S8x64x4096.Idx → EReal) (wt : S8x4096x4096.Idx → EReal) : S8x64x4096.Idx → EReal :=
  fun i => updateAt st st16 pj wt (i 0) (i 1) (i 2)

/-- Where the windows' blocks sit at each grid point, decided over the 32 points: the row-block windows at
    (chunk, 0, 0), the tile windows at (chunk, 0, tile), the chunk below 8 and the tile below 4, and the second
    grid coordinate the tile number. -/
theorem block_positions : ∀ t : Fin cfg0.N,
    win0_0.index t (0 : Fin 3) = win0_4.index t (0 : Fin 3) ∧ win0_0.index t (1 : Fin 3) = 0 ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = win0_4.index t (2 : Fin 3)
    ∧ win0_3.index t (0 : Fin 3) = win0_4.index t (0 : Fin 3) ∧ win0_3.index t (1 : Fin 3) = 0 ∧ win0_3.index t (2 : Fin 3) = win0_4.index t (2 : Fin 3)
    ∧ win0_4.index t (1 : Fin 3) = 0 ∧ win0_4.index t (0 : Fin 3) ≤ 7 ∧ win0_4.index t (2 : Fin 3) ≤ 3
    ∧ ((grid0.coords t) 1).val = win0_4.index t (2 : Fin 3) :=
  (by decide +kernel : ∀ t : Fin grid0.N, _)

/-- What grid point `t` writes back is block `t` of `update` of the four staged arrays as the call finds them:
    the body's value at a block index is `updateAt` at the array index the output block places it at, each
    input block read where the windows' positions put it — the row blocks and the weight tile of the same
    chunk, the projection and state tiles at the same columns. -/
theorem flushed_eq (c : Dev nD) (t : Fin cfg0.N) :
    (regionData m 0 c).flushed 4 t = ((cfg0.win 4).blk t).view.read (Elt Ideal)
      (update (atEntry m c main_v26) (atEntry m c main_v27) (atEntry m c main_v25) (atEntry m c main_v24)) := by
  show (cfg0.win 4).cut (grid0.coords t) ((regionData m 0 c).after 4 t) = _
  rw [left4]
  unfold tileOut
  rw [View.canon_unit_zero zeros3]
  simp only [View.ld_unit_zero (S := S1x64x4096) zeros3, View.ld_unit_zero (S := S1x4096x1024) zeros3, View.ld_unit_zero (S := S1x64x1024) zeros3]
  funext y
  obtain ⟨z, p, q, rfl⟩ : ∃ (z : Fin 1) (p : Fin 64) (q : Fin 1024), y = ix3 z p q := ⟨y 0, y 1, y 2, eq_ix3 y⟩
  obtain rfl : z = 0 := Subsingleton.elim _ _
  refine (tile_apply _ _ _ _ p q).trans ?_
  obtain ⟨e00, e01, e02, e10, e11, e12, e20, e21, e22, e30, e31, e32, e41, b40, b42, eg⟩ := block_positions t
  have hp := p.isLt
  have hq := q.isLt
  have hb0 : win0_4.index t (0 : Fin 3) < 8 := by omega
  have hb2 : win0_4.index t (2 : Fin 3) * 1024 + q.val < 4096 := by omega
  have hE : ((cfg0.win 4).blk t).view.emb (ix3 (0 : Fin 1) p q)
      = ix3 (⟨win0_4.index t (0 : Fin 3), hb0⟩ : Fin 8) p (⟨win0_4.index t (2 : Fin 3) * 1024 + q.val, hb2⟩ : Fin 4096) := by
    funext a; apply Fin.ext
    match a with
    | ⟨0, _⟩ => show win0_4.index t (0 : Fin 3) * 1 + 1 * 0 = win0_4.index t (0 : Fin 3); omega
    | ⟨1, _⟩ => show win0_4.index t (1 : Fin 3) * 64 + 1 * p.val = p.val; omega
    | ⟨2, _⟩ => show win0_4.index t (2 : Fin 3) * 1024 + 1 * q.val = win0_4.index t (2 : Fin 3) * 1024 + q.val; omega
  show _ = update _ _ _ _ (((cfg0.win 4).blk t).view.emb (ix3 (0 : Fin 1) p q))
  rw [hE]
  show _ = updateAt _ _ _ _ _ p _
  unfold updateAt
  have h1 : ∀ k : Fin 4096, blockAt m c 1 t (ix3 (0 : Fin 1) p k)
      = atEntry m c main_v27 (ix3 (⟨win0_4.index t (0 : Fin 3), hb0⟩ : Fin 8) p k) := fun k => by
    show atEntry m c main_v27 (((cfg0.win 1).blk t).view.emb (ix3 (0 : Fin 1) p k)) = _
    refine congrArg _ (funext fun a => Fin.ext ?_)
    match a with
    | ⟨0, _⟩ => show win0_1.index t (0 : Fin 3) * 1 + 1 * 0 = win0_4.index t (0 : Fin 3); omega
    | ⟨1, _⟩ => show win0_1.index t (1 : Fin 3) * 64 + 1 * p.val = p.val; omega
    | ⟨2, _⟩ => show win0_1.index t (2 : Fin 3) * 4096 + 1 * k.val = k.val; omega
  have h3 : ∀ k : Fin 4096, blockAt m c 3 t (ix3 (0 : Fin 1) k q)
      = atEntry m c main_v24 (ix3 (⟨win0_4.index t (0 : Fin 3), hb0⟩ : Fin 8) k (⟨win0_4.index t (2 : Fin 3) * 1024 + q.val, hb2⟩ : Fin 4096)) := fun k => by
    show atEntry m c main_v24 (((cfg0.win 3).blk t).view.emb (ix3 (0 : Fin 1) k q)) = _
    refine congrArg _ (funext fun a => Fin.ext ?_)
    match a with
    | ⟨0, _⟩ => show win0_3.index t (0 : Fin 3) * 1 + 1 * 0 = win0_4.index t (0 : Fin 3); omega
    | ⟨1, _⟩ => show win0_3.index t (1 : Fin 3) * 4096 + 1 * k.val = k.val; omega
    | ⟨2, _⟩ => show win0_3.index t (2 : Fin 3) * 1024 + 1 * q.val = win0_4.index t (2 : Fin 3) * 1024 + q.val; omega
  have h2 : blockAt m c 2 t (ix3 (0 : Fin 1) p q)
      = atEntry m c main_v25 (ix3 (⟨win0_4.index t (0 : Fin 3), hb0⟩ : Fin 8) p (⟨win0_4.index t (2 : Fin 3) * 1024 + q.val, hb2⟩ : Fin 4096)) := by
    show atEntry m c main_v25 (((cfg0.win 2).blk t).view.emb (ix3 (0 : Fin 1) p q)) = _
    refine congrArg _ (funext fun a => Fin.ext ?_)
    match a with
    | ⟨0, _⟩ => show win0_2.index t (0 : Fin 3) * 1 + 1 * 0 = win0_4.index t (0 : Fin 3); omega
    | ⟨1, _⟩ => show win0_2.index t (1 : Fin 3) * 64 + 1 * p.val = p.val; omega
    | ⟨2, _⟩ => show win0_2.index t (2 : Fin 3) * 1024 + 1 * q.val = win0_4.index t (2 : Fin 3) * 1024 + q.val; omega
  have hoff : k0_off1 (grid0.coords t) = ![0, 0, 1024 * ((grid0.coords t) 1).val] := k0_off1_eq (grid0.coords t)
  have h0 : View.ld (blockAt m c 0 t) (rTile (grid0.coords t)) (ix3 (0 : Fin 1) p q)
      = atEntry m c main_v26 (ix3 (⟨win0_4.index t (0 : Fin 3), hb0⟩ : Fin 8) p (⟨win0_4.index t (2 : Fin 3) * 1024 + q.val, hb2⟩ : Fin 4096)) := by
    show atEntry m c main_v26 (((cfg0.win 0).blk t).view.emb ((rTile (grid0.coords t)).emb (ix3 (0 : Fin 1) p q))) = _
    refine congrArg _ (funext fun a => Fin.ext ?_)
    match a with
    | ⟨0, _⟩ => show win0_0.index t (0 : Fin 3) * 1 + 1 * (k0_off1 (grid0.coords t) 0 + 1 * 0) = win0_4.index t (0 : Fin 3); rw [hoff]; show _ * 1 + 1 * (0 + 1 * 0) = _; omega
    | ⟨1, _⟩ => show win0_0.index t (1 : Fin 3) * 64 + 1 * (k0_off1 (grid0.coords t) 1 + 1 * p.val) = p.val; rw [hoff]; show _ * 64 + 1 * (0 + 1 * p.val) = _; omega
    | ⟨2, _⟩ => show win0_0.index t (2 : Fin 3) * 4096 + 1 * (k0_off1 (grid0.coords t) 2 + 1 * q.val) = win0_4.index t (2 : Fin 3) * 1024 + q.val; rw [hoff]; show _ * 4096 + 1 * (1024 * ((grid0.coords t) 1).val + 1 * q.val) = _; omega
  rw [h2, h0, Finset.sum_congr rfl (fun k _ => by rw [h1 k, h3 k])]

/-- Every (chunk, tile) pair is some grid point's output block position. -/
theorem every_block : ∀ (q0 : Fin 8) (q2 : Fin 4), ∃ t : Fin cfg0.N, win0_4.index t = ![q0.val, 0, q2.val] :=
  (by decide +kernel : ∀ (q0 : Fin 8) (q2 : Fin 4), ∃ t : Fin grid0.N, win0_4.index t = ![q0.val, 0, q2.val])

/-- An index of the result array is in point `t`'s block iff each coordinate is in the block's range. -/
theorem mem_block (t : Fin cfg0.N) (i : S8x64x4096.Idx) :
    i ∈ ((cfg0.win 4).blk t).view.set ↔ ∀ a : Fin 3, win0_4.index t a * S1x64x1024.size a ≤ (i a).val
      ∧ (i a).val < win0_4.index t a * S1x64x1024.size a + S1x64x1024.size a := by
  show i ∈ ((View.whole main_v28).slice (win0_4.rect t)).set ↔ _
  rw [View.set_slice_whole, Rect.mem_set_unit]
  exact Iff.rfl

/-- The output blocks tile the result array: index (c, s, r) is in the block of chunk c and tile r / 1024. -/
theorem covered (i : S8x64x4096.Idx) : ∃ t : Fin cfg0.N, (cfg0.win 4).flush t = true ∧ i ∈ ((cfg0.win 4).blk t).view.set := by
  have h0 : (i 0).val < 8 := (i 0).isLt
  have h1 : (i 1).val < 64 := (i 1).isLt
  have h2 : (i 2).val < 4096 := (i 2).isLt
  obtain ⟨t, ht⟩ := every_block ⟨(i 0).val, h0⟩ ⟨(i 2).val / 1024, by omega⟩
  have q0 : win0_4.index t (0 : Fin 3) = (i 0).val := congrFun ht 0
  have q1 : win0_4.index t (1 : Fin 3) = 0 := congrFun ht 1
  have q2 : win0_4.index t (2 : Fin 3) = (i 2).val / 1024 := congrFun ht 2
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 64 ≤ (i 1).val ∧ (i 1).val < win0_4.index t (1 : Fin 3) * 64 + 64; omega
  | ⟨2, _⟩ => show win0_4.index t (2 : Fin 3) * 1024 ≤ (i 2).val ∧ (i 2).val < win0_4.index t (2 : Fin 3) * 1024 + 1024; omega

/-- The result array after the last grid point. -/
theorem result_array (c : Dev nD) : (regionData m 0 c).arrAt 4 cfg0.N
    = update (atEntry m c main_v26) (atEntry m c main_v27) (atEntry m c main_v25) (atEntry m c main_v24) :=
  (regionData m 0 c).arrAt_eq_of_cover 4 _ (fun t _ => flushed_eq m c t) covered

end Cert.KernelIdeal.Blocks

end
-- ==== Proof.KernelIdealHost.lean ====
/-
  What the host operations around the pallas_call of `KernelIdeal` compute, as functions of the argument
  arrays.  Before the call: the chunk, column and row indices of the sparse entries (each wrapped once, a
  negative index taken from the end), joined into index triples; the dense weight as the scatter-add of
  the entries' values into zeros at (chunk, column, row), rounded to bf16; the projection and the state
  transposed to chunk-major, the state also rounded to bf16.  After the call: the result transposed back.
-/
import proofs.«412699_j45578192945261_2_alg».proof.Proof.KernelIdealRegion
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen Cert.KernelIdeal.Region
open Idealize.ShloMosaic.Pipeline (Dat)

variable {F : FTy → Type} [FloatOps F]

/-- A three-operand operation's result with each operand's contents at its own reference. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- The chunk numbers 0 … 7 as a column, each wrapped (a negative one would be taken from the end; none is). -/
def chunkIdx : IVec S8x1 32 :=
  select (cmpi .slt (broadcastInDim S8x1 ![0] bcast_S8_S8x1_0 (iotaInDim S8 32 0)) (broadcastInDim S8x1 ![] bcast_S_S8x1 (constantI S_ 32 0#32)))
    (addi (broadcastInDim S8x1 ![0] bcast_S8_S8x1_0 (iotaInDim S8 32 0)) (broadcastInDim S8x1 ![] bcast_S_S8x1 (constantI S_ 32 8#32)))
    (broadcastInDim S8x1 ![0] bcast_S8_S8x1_0 (iotaInDim S8 32 0))

/-- An index array wrapped once: a negative entry has 4096 added. -/
def wrapIdx (x : IVec S8x335544 32) : IVec S8x335544 32 :=
  select (cmpi .slt x (broadcastInDim S8x335544 ![] bcast_S_S8x335544 (constantI S_ 32 0#32)))
    (addi x (broadcastInDim S8x335544 ![] bcast_S_S8x335544 (constantI S_ 32 4096#32))) x

/-- The index triples (chunk, column, row) of the entries: `rows` and `cols` the two index arguments. -/
def scatterIdx (rows cols : IVec S8x335544 32) : IVec S8x335544x3 32 :=
  concatenate S8x335544x3 2
    [⟨S8x335544x1, broadcastInDim S8x335544x1 ![0, 1] bcast_S8x335544_S8x335544x1_0_1 (broadcastInDim S8x335544 ![0, 1] bcast_S8x1_S8x335544_0_1 chunkIdx)⟩,
     ⟨S8x335544x1, broadcastInDim S8x335544x1 ![0, 1] bcast_S8x335544_S8x335544x1_0_1 (wrapIdx cols)⟩,
     ⟨S8x335544x1, broadcastInDim S8x335544x1 ![0, 1] bcast_S8x335544_S8x335544x1_0_1 (wrapIdx rows)⟩]
    concatenates_S8x335544x1_S8x335544x1_S8x335544x1_S8x335544x3_d2

/-- The dense transposed weight: the entries' values added into zeros at their triples. -/
def dense (vals : FVec F S8x335544 .f32) (rows cols : IVec S8x335544 32) : FVec F S8x4096x4096 .f32 :=
  Host.scatterAdd scatter_S8x4096x4096_S8x335544x3_S8x335544_n_012_012_2
    (broadcastInDim S8x4096x4096 ![] bcast_S_S8x4096x4096 (constant S_ .f32 0x00000000#32)) (scatterIdx rows cols) vals

/-- An [64, 8, 4096] array with the chunk axis moved first. -/
def chunkMajor (x : FVec F S64x8x4096 .f32) : FVec F S8x64x4096 .f32 :=
  transpose S8x64x4096 [1, 0, 2] x transposes_S64x8x4096_S8x64x4096_1_0_2

variable (m : (ℓ : Loc nD τ sig) → Buf (Elt F) ℓ)

set_option maxHeartbeats 2000000 in
/-- The weight window's array at the call: the dense weight rounded to bf16. -/
theorem entry_weight (c : Dev nD) : (atEntry m c main_v24 : S8x4096x4096.Idx → Elt F .bf16)
    = truncf .bf16 (dense (m ((c : Thread nD τ).loc main_arg2)) (m ((c : Thread nD τ).loc main_arg3)) (m ((c : Thread nD τ).loc main_arg4))) bitsLt_bf16_f32 := by
  dsimp only [atEntry, entry]
  simp only [hostOps0, List.flatten_cons, List.flatten_nil, List.append_nil, after_cons, after_nil]
  repeat (first
    | rw [nullary_result] | rw [unary_result] | rw [binary_result] | rw [ternary_result] | rw [nary3_result]
    | (rw [nullary_result_ne]; rotate_left; decide)
    | (rw [unary_result_ne]; rotate_left; decide)
    | (rw [binary_result_ne]; rotate_left; decide)
    | (rw [ternary_result_ne]; rotate_left; decide)
    | (rw [nary_result_ne]; rotate_left; decide))
  rfl

end Cert.KernelIdeal.Host

end
-- ==== Proof.KernelIdealEnds.lean ====
/-
  The other three arrays the pallas_call of `KernelIdeal` stages — the projection and the state moved to
  chunk-major order, and the state rounded to bf16 — as functions of the argument arrays, and the program's
  result as the transpose back of the array the call wrote.
-/
import proofs.«412699_j45578192945261_2_alg».proof.Proof.KernelIdealHost

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen Cert.KernelIdeal.Region
open Idealize.ShloMosaic.Pipeline (Dat)

variable {F : FTy → Type} [FloatOps F]
variable (m : (ℓ : Loc nD τ sig) → Buf (Elt F) ℓ)

set_option maxHeartbeats 2000000 in
/-- The projection window's array at the call: the first argument, chunk-major. -/
theorem entry_proj (c : Dev nD) : (atEntry m c main_v25 : S8x64x4096.Idx → Elt F .f32)
    = chunkMajor (m ((c : Thread nD τ).loc main_arg0)) := by
  dsimp only [atEntry, entry]
  simp only [hostOps0, List.flatten_cons, List.flatten_nil, List.append_nil]
  after_results
  rfl

set_option maxHeartbeats 2000000 in
/-- The f32 state window's array at the call: the second argument, chunk-major. -/
theorem entry_state (c : Dev nD) : (atEntry m c main_v26 : S8x64x4096.Idx → Elt F .f32)
    = chunkMajor (m ((c : Thread nD τ).loc main_arg1)) := by
  dsimp only [atEntry, entry]
  simp only [hostOps0, List.flatten_cons, List.flatten_nil, List.append_nil]
  after_results
  rfl

set_option maxHeartbeats 2000000 in
/-- The bf16 state window's array at the call: the same, rounded. -/
theorem entry_state16 (c : Dev nD) : (atEntry m c main_v27 : S8x64x4096.Idx → Elt F .bf16)
    = truncf .bf16 (chunkMajor (m ((c : Thread nD τ).loc main_arg1))) bitsLt_bf16_f32 := by
  dsimp only [atEntry, entry]
  simp only [hostOps0, List.flatten_cons, List.flatten_nil, List.append_nil]
  after_results
  rfl

/-- The program's result after the transpose that follows the call: the call's result array — whatever the
    proof data say it holds after the last grid point — with the chunk axis moved back to second place. -/
theorem exit_result (dats : (p : Fin _) → (c : Dev nD) → Dat τ (Elt F) Unit ℕ (UR sig nD τ) ℕ (cfgs p) c) (c : Dev nD) :
    (Pipeline.afterTail₀ cfgs dats 0 (entry m) [hostOps1] c main_v29 : S64x8x4096.Idx → Elt F .f32)
      = transpose S64x8x4096 [1, 0, 2] ((dats 0 c).arrAt 4 cfg0.N : S8x64x4096.Idx → Elt F .f32) transposes_S8x64x4096_S64x8x4096_1_0_2 := by
  unfold Pipeline.afterTail₀
  show StableHlo.after hostOps1 _ (Proc.devRef .tc main_v29) = _
  after_results
  exact congrArg (fun z => transpose S64x8x4096 [1, 0, 2] z transposes_S8x64x4096_S64x8x4096_1_0_2)
    (Pipeline.withArrays_arr spec0 launch0.win.arr_inj c _ _ 4)

end Cert.KernelIdeal.Host

end
-- ==== Proof.KernelIdealValue.lean ====
/-
  The value `KernelIdeal` computes, at the ideal instance: every run of @main ends with the result array at
  `kernelOut` of the five argument arrays and the arguments unchanged.  `kernelOut` is, entry (s, c, r),
      0.6 · tanh(∑ₖ state[s,c,k] · W[c,k,r] + proj[s,c,r] + 1.6) + 0.4 · state[s,c,r]
  with `W` the dense weight the host scatter-add builds — stated over the chunk-major copies the call reads
  and transposed back, the two roundings to bf16 being the identity on the extended reals.
-/
import proofs.«412699_j45578192945261_2_alg».proof.Proof.KernelIdealBlocks
import proofs.«412699_j45578192945261_2_alg».proof.Proof.KernelIdealEnds

set_option maxRecDepth 16384

noncomputable section

namespace Cert.KernelIdeal.Value

open Idealize.ShloMosaic Idealize.ShloMosaic.TcCoe Idealize.SL.Sem
open Cert.KernelIdeal Cert.KernelIdeal.Gen Cert.KernelIdeal.Region Cert.KernelIdeal.Host Cert.KernelIdeal.Blocks

/-- The program's result as a function of its arguments (projection, state, entry values, row and column indices). -/
def kernelOut (proj state : FVec Ideal S64x8x4096 .f32) (vals : FVec Ideal S8x335544 .f32) (rows cols : IVec S8x335544 32) :
    FVec Ideal S64x8x4096 .f32 :=
  transpose S64x8x4096 [1, 0, 2]
    (update (chunkMajor state) (truncf .bf16 (chunkMajor state) bitsLt_bf16_f32) (chunkMajor proj)
      (truncf .bf16 (dense vals rows cols) bitsLt_bf16_f32))
    transposes_S8x64x4096_S64x8x4096_1_0_2

variable (m : (ℓ : Loc nD τ sig) → Buf (Elt Ideal) ℓ) (ρ : Dev nD → PrngReg)

/-- The result buffer after the run. -/
theorem result_eq (c : Dev nD) :
    (Pipeline.afterTail₀ cfgs (regionData m) 0 (entry m) [hostOps1] c main_v29 : S64x8x4096.Idx → Elt Ideal .f32)
      = kernelOut (m ((c : Thread nD τ).loc main_arg0)) (m ((c : Thread nD τ).loc main_arg1)) (m ((c : Thread nD τ).loc main_arg2))
          (m ((c : Thread nD τ).loc main_arg3)) (m ((c : Thread nD τ).loc main_arg4)) := by
  rw [exit_result, result_array, entry_weight, entry_proj, entry_state, entry_state16]
  rfl

/-- Every weakly fair execution of @main terminates without a fault, the result at `kernelOut` of the arguments and
    the arguments as launched. -/
theorem run : θ_run defs (onTc (τ := τ) (main (F := Ideal))) ⟨m, fun _ => 0, ρ⟩ (fun r => ∀ c : Dev nD,
      r.2.mem ((c.tc : Thread nD τ).loc main_v29)
        = kernelOut (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v29 (Pipeline.mem_restRefs_of main_v29 (by decide) (by decide))).trans (result_eq m c),
     ((h c).2 main_arg0 (Pipeline.mem_restRefs_of main_arg0 (by decide) (by decide))).trans (exit_arg0 m (regionData m) c),
     ((h c).2 main_arg1 (Pipeline.mem_restRefs_of main_arg1 (by decide) (by decide))).trans (exit_arg1 m (regionData m) c),
     ((h c).2 main_arg2 (Pipeline.mem_restRefs_of main_arg2 (by decide) (by decide))).trans (exit_arg2 m (regionData m) c),
     ((h c).2 main_arg3 (Pipeline.mem_restRefs_of main_arg3 (by decide) (by decide))).trans (exit_arg3 m (regionData m) c),
     ((h c).2 main_arg4 (Pipeline.mem_restRefs_of main_arg4 (by decide) (by decide))).trans (exit_arg4 m (regionData m) c)⟩)
    (run_region m ρ)

end Cert.KernelIdeal.Value

end
-- ==== Proof.PreFacts.lean ====
/-
  The printed precondition, read at the ideal instance. The precondition is the conjunction of four
  "all" tests over whole arrays: |x0| < +∞, |x1| < +∞, |x2| < +∞ entrywise, and 0 ≤ x4 < 4096 entrywise
  (signed). Each test is a reduction by "and" into a single one-bit word, and the claim says the
  conjunction of the four words is 1. So each word is 1, so each entry's test is 1. At the ideal
  instance an entry is an extended real, |x| is max x (−x), and the pattern 0x7F800000 denotes +∞: an
  extended real with max x (−x) < +∞ is neither −∞ nor +∞, hence a real. A signed comparison that is 1
  orders the signed values of its words, and the constants 0 and 4096 read as themselves.
-/
import proofs.«412699_j45578192945261_2_alg».proof.Pre_finite_inputs
import proofs.«412699_j45578192945261_2_alg».proof.Proof.Gen.Pre_finite_inputs
import Idealize.ShloMosaic.PureOps.Ideal
import Idealize.ShloMosaic.Lib.ReduceAll
import Idealize.ShloMosaic.Lib.ValueIdx

noncomputable section

namespace Cert.Esn.PreFacts

open Idealize.ShloMosaic Cert.Pre_finite_inputs

/-- The scalar shape has one index. -/
instance scalarIdx_subsingleton : Subsingleton S_.Idx := ⟨fun a b => funext fun d => d.elim0⟩

/-- The f32 pattern with all exponent bits set and no significand bit denotes +∞. -/
theorem inf_pattern : Ideal.ofBits .f32 0x7F800000#32 = (⊤ : EReal) := by simp [Ideal.ofBits, Ideal.ieee]

/-- An extended real whose absolute value max x (−x) is below +∞ is a real:
    at −∞ the negation is +∞, at +∞ the value itself is, and +∞ < +∞ is false. -/
theorem real_of_abs_lt_inf (x : EReal)
    (h : Ideal.cmp .olt (max x (-x)) (Ideal.ofBits .f32 0x7F800000#32) = 1#1) : ∃ r : ℝ, x = (r : EReal) := by
  rw [inf_pattern] at h
  induction x using EReal.rec with
  | bot => simp [Ideal.cmp] at h
  | coe r => exact ⟨r, rfl⟩
  | top => simp [Ideal.cmp] at h

/-- One entry of an array whose "all |x| < +∞" word is 1 is a real (any shape reduced over all its axes). -/
theorem real_of_all_abs_lt_inf {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi (cmpf .olt (Host.absf x) (broadcastInDim s ![] hb (constant S_ .f32 0x7F800000#32)))
          (constantI S_ 1 1#1) hr h0 ValueIdx.ix0 = 1#1) (i : s.Idx) : ∃ r : ℝ, x i = (r : EReal) :=
  real_of_abs_lt_inf (x i) (Host.reduce_andi_all _ _ hr h0 ValueIdx.ix0 e i)

/-- The signed values of the two constants the index test compares against. -/
theorem toInt_zero32 : (0#32 : BitVec 32).toInt = 0 := by decide
theorem toInt_4096 : (4096#32 : BitVec 32).toInt = 4096 := by decide

end Cert.Esn.PreFacts

namespace Cert.Esn

open Idealize.ShloMosaic Cert.Pre_finite_inputs Cert.Esn.PreFacts

/-- What the precondition gives the value proof: every entry of x1 and of x2 is a real, and every entry of x4,
    read signed, lies in [0, 4096). -/
theorem facts_of_pre [Cert.Pre_finite_inputs.Facts]
    (x0 x1 : FVec Ideal Cert.Pre_finite_inputs.S64x8x4096 .f32) (x2 : FVec Ideal Cert.Pre_finite_inputs.S8x335544 .f32)
    (x3 x4 : IVec Cert.Pre_finite_inputs.S8x335544 32)
    (h : Cert.Pre_finite_inputs.fn (F := Ideal) x0 x1 x2 x3 x4 = fun _ => 1#1) :
    (∀ i, ∃ r : ℝ, x1 i = (r : EReal)) ∧ (∀ j, ∃ r : ℝ, x2 j = (r : EReal))
      ∧ (∀ j, 0 ≤ (x4 j).toInt ∧ (x4 j).toInt < 4096) := by
  -- the claim at the result's one index, the chain of operations in view
  have e := congrFun h ValueIdx.ix0
  dsimp only [fn, fn_part1] at e
  -- the conjunction of four words is 1: each word is 1
  obtain ⟨e123, e4⟩ := IntOp.andi_eq_one.1 e
  obtain ⟨e12, e3⟩ := IntOp.andi_eq_one.1 e123
  obtain ⟨e1, e2⟩ := IntOp.andi_eq_one.1 e12
  refine ⟨fun i => real_of_all_abs_lt_inf x1 _ _ _ e2 i, fun j => real_of_all_abs_lt_inf x2 _ _ _ e3 j, fun j => ?_⟩
  -- the index test at entry j: both comparisons are 1
  obtain ⟨ge, lt⟩ := IntOp.andi_eq_one.1 (Host.reduce_andi_all _ _ _ _ ValueIdx.ix0 e4 j)
  have ge' : IntOp.cmpi .sge (x4 j) 0#32 = 1#1 := ge
  have lt' : IntOp.cmpi .slt (x4 j) 4096#32 = 1#1 := lt
  have hge := IntOp.cmpi_sge.1 ge'
  have hlt := IntOp.cmpi_slt.1 lt'
  rw [toInt_zero32] at hge
  rw [toInt_4096] at hlt
  exact ⟨hge, hlt⟩

end Cert.Esn

end
-- ==== Proof.KernelIdealIdx.lean ====
/-
  Where the scatter-add that builds the dense weight lands each sparse entry.  Entry `j = (chunk, n)` carries
  an index triple; the scatter adds its value at exactly the element of the [8, 4096, 4096] array whose three
  coordinates are the triple's components read as signed integers, and drops it when any component is out of
  range.  The triple's components are the chunk number, the wrapped column index and the wrapped row index.
-/
import proofs.«412699_j45578192945261_2_alg».proof.Proof.KernelIdealHost
import Idealize.ShloMosaic.Lib.Pipeline.Value
import Idealize.ShloMosaic.Lib.ValueIdx
import Idealize.ShloMosaic.Lib.Affine

set_option maxRecDepth 16384

noncomputable section

namespace Cert.KernelIdeal.Host

open Idealize.ShloMosaic Idealize.ShloMosaic.ValueIdx
open Cert.KernelIdeal Cert.KernelIdeal.Gen

/-- The dimension numbers of the scatter-add: a rank-0 update window, the three index components going to the
    three axes of the operand. -/
abbrev dK := scatter_S8x4096x4096_S8x335544x3_S8x335544_n_012_012_2

/-- Where component `a` of entry `j`'s index triple sits in the [8, 335544, 3] index array. -/
def tri (j : S8x335544.Idx) (a : Fin 3) : S8x335544x3.Idx := fun b => match b with
  | ⟨0, _⟩ => ⟨(j 0).val, (j 0).isLt⟩
  | ⟨1, _⟩ => ⟨(j 1).val, (j 1).isLt⟩
  | ⟨2, _⟩ => ⟨a.val, a.isLt⟩

theorem siIdx_tri (j : S8x335544.Idx) (a : Fin 3) : dK.siIdx j ⟨a.val, by fin_cases a <;> decide⟩ = tri j a := by
  funext b
  fin_cases b <;> fin_cases a <;> rfl

/-- The start of entry `j`'s (one-element) window on axis `a` is component `a` of its triple, signed. -/
theorem start_tri (j : S8x335544.Idx) (idx : IVec S8x335544x3 32) (a : Fin 3) : dK.start j idx a = (idx (tri j a)).toInt := by
  fin_cases a
  · unfold ScatterDims.start; rw [dif_pos (by decide)]; exact congrArg (fun z => (idx z).toInt) (siIdx_tri j 0)
  · unfold ScatterDims.start; rw [dif_pos (by decide)]; exact congrArg (fun z => (idx z).toInt) (siIdx_tri j 1)
  · unfold ScatterDims.start; rw [dif_pos (by decide)]; exact congrArg (fun z => (idx z).toInt) (siIdx_tri j 2)

/-- The window has no extent: its coordinate is 0 on every axis. -/
theorem window_zero (j : S8x335544.Idx) (a : Fin 3) : dK.window j a = 0 := by
  unfold ScatterDims.window; rw [dif_neg (by fin_cases a <;> decide)]

/-- Entry `j` lands on element `i` iff each component of its triple, signed, is the coordinate of `i`. -/
theorem lands_iff (j : S8x335544.Idx) (idx : IVec S8x335544x3 32) (i : S8x4096x4096.Idx) :
    dK.resultIdx? j idx = some i ↔ ∀ a : Fin 3, (idx (tri j a)).toInt = ((i a).val : Int) := by
  have hs : ∀ a, dK.start j idx a + (dK.window j a : Int) = (idx (tri j a)).toInt := fun a => by
    rw [start_tri, window_zero]; simp
  unfold ScatterDims.resultIdx?
  by_cases h : ∀ a, 0 ≤ dK.start j idx a + dK.window j a ∧ dK.start j idx a + dK.window j a < S8x4096x4096.size a
  · rw [dif_pos h, Option.some.injEq]
    constructor
    · intro e a
      have e' : (dK.start j idx a + (dK.window j a : Int)).toNat = (i a).val := congrArg (fun f => (f a).val) e
      have h0 := (h a).1
      rw [hs] at e' h0
      omega
    · intro e
      funext a; apply Fin.ext
      show (dK.start j idx a + (dK.window j a : Int)).toNat = (i a).val
      rw [hs, e a]; simp
  · rw [dif_neg h]
    constructor
    · intro e; cases e
    · intro e; exfalso; apply h; intro a
      rw [hs, e a]
      exact ⟨Int.natCast_nonneg _, by exact_mod_cast (i a).isLt⟩

/-! ## The components of the triples -/

/-- Entry `j`'s place in an [8, 335544, 1] column array. -/
def col1 (j : S8x335544.Idx) : S8x335544x1.Idx := fun b => match b with
  | ⟨0, _⟩ => ⟨(j 0).val, (j 0).isLt⟩
  | ⟨1, _⟩ => ⟨(j 1).val, (j 1).isLt⟩
  | ⟨2, _⟩ => (0 : Fin 1)

/-- An [8, 335544] array laid out as an [8, 335544, 1] column reads the same entry. -/
theorem column_apply (x : IVec S8x335544 32) (j : S8x335544.Idx) :
    broadcastInDim S8x335544x1 ![0, 1] bcast_S8x335544_S8x335544x1_0_1 x (col1 j) = x j :=
  broadcastInDim_apply _ bcast_S8x335544_S8x335544x1_0_1 x (col1 j) j (fun a => by
    fin_cases a
    · show (j 0).val = if (8 : Nat) = 1 then 0 else (j 0).val; rw [if_neg (by decide)]
    · show (j 1).val = if (335544 : Nat) = 1 then 0 else (j 1).val; rw [if_neg (by decide)])

/-- The chunk column broadcast along the entries reads, at entry `j`, the chunk number of `j`. -/
theorem chunk_apply (j : S8x335544.Idx) :
    broadcastInDim S8x335544 ![0, 1] bcast_S8x1_S8x335544_0_1 chunkIdx j = BitVec.ofNat 32 (j 0).val := by
  have hj : (j 0).val < 8 := (j 0).isLt
  rw [broadcastInDim_apply _ bcast_S8x1_S8x335544_0_1 chunkIdx j (ix2 (⟨(j 0).val, hj⟩ : Fin 8) (0 : Fin 1)) (fun a => by
    fin_cases a
    · show (j 0).val = if (8 : Nat) = 1 then 0 else (j 0).val; rw [if_neg (by decide)]
    · show (0 : Nat) = if (1 : Nat) = 1 then 0 else (j 1).val; rw [if_pos rfl])]
  have hv : broadcastInDim S8x1 ![0] bcast_S8_S8x1_0 (iotaInDim S8 32 0) (ix2 (⟨(j 0).val, hj⟩ : Fin 8) (0 : Fin 1))
      = BitVec.ofNat 32 (j 0).val :=
    broadcastInDim_apply _ bcast_S8_S8x1_0 (iotaInDim S8 32 0) _ (ix1 (⟨(j 0).val, hj⟩ : Fin 8)) (fun a => by
      fin_cases a
      show (j 0).val = if (8 : Nat) = 1 then 0 else (j 0).val; rw [if_neg (by decide)])
  show Scalar.select (IntOp.cmpi .slt (broadcastInDim S8x1 ![0] bcast_S8_S8x1_0 (iotaInDim S8 32 0) (ix2 (⟨(j 0).val, hj⟩ : Fin 8) (0 : Fin 1))) 0#32)
      (broadcastInDim S8x1 ![0] bcast_S8_S8x1_0 (iotaInDim S8 32 0) (ix2 (⟨(j 0).val, hj⟩ : Fin 8) (0 : Fin 1)) + 8#32)
      (broadcastInDim S8x1 ![0] bcast_S8_S8x1_0 (iotaInDim S8 32 0) (ix2 (⟨(j 0).val, hj⟩ : Fin 8) (0 : Fin 1))) = _
  rw [hv]
  generalize (j 0).val = n at hj
  interval_cases n <;> decide

/-- The three columns the triples are joined from. -/
abbrev pieces (rows cols : IVec S8x335544 32) : List ((s : Shape) × IVec s 32) :=
  [⟨S8x335544x1, broadcastInDim S8x335544x1 ![0, 1] bcast_S8x335544_S8x335544x1_0_1 (broadcastInDim S8x335544 ![0, 1] bcast_S8x1_S8x335544_0_1 chunkIdx)⟩,
   ⟨S8x335544x1, broadcastInDim S8x335544x1 ![0, 1] bcast_S8x335544_S8x335544x1_0_1 (wrapIdx cols)⟩,
   ⟨S8x335544x1, broadcastInDim S8x335544x1 ![0, 1] bcast_S8x335544_S8x335544x1_0_1 (wrapIdx rows)⟩]

theorem scatterIdx_pieces (rows cols : IVec S8x335544 32) : scatterIdx rows cols
    = concatenate S8x335544x3 2 (pieces rows cols) concatenates_S8x335544x1_S8x335544x1_S8x335544x1_S8x335544x3_d2 := rfl

theorem triple_chunk (rows cols : IVec S8x335544 32) (j : S8x335544.Idx) :
    scatterIdx rows cols (tri j 0) = BitVec.ofNat 32 (j 0).val := by
  rw [scatterIdx_pieces, concatenate_apply_piece (t := S8x335544x3) (2 : Fin 3) (pieces rows cols) concatenates_S8x335544x1_S8x335544x1_S8x335544x1_S8x335544x3_d2 (tri j 0) 0 (by show (0 : Nat) < 3; decide)
    S8x335544x1 _ rfl rfl 0 rfl (col1 j) (fun b hb => by fin_cases b <;> first | rfl | exact absurd rfl hb) rfl,
    column_apply, chunk_apply]

theorem triple_col (rows cols : IVec S8x335544 32) (j : S8x335544.Idx) :
    scatterIdx rows cols (tri j 1) = wrapIdx cols j := by
  rw [scatterIdx_pieces, concatenate_apply_piece (t := S8x335544x3) (2 : Fin 3) (pieces rows cols) concatenates_S8x335544x1_S8x335544x1_S8x335544x1_S8x335544x3_d2 (tri j 1) 1 (by show (1 : Nat) < 3; decide)
    S8x335544x1 _ rfl rfl 1 rfl (col1 j) (fun b hb => by fin_cases b <;> first | rfl | exact absurd rfl hb) rfl,
    column_apply]

theorem triple_row (rows cols : IVec S8x335544 32) (j : S8x335544.Idx) :
    scatterIdx rows cols (tri j 2) = wrapIdx rows j := by
  rw [scatterIdx_pieces, concatenate_apply_piece (t := S8x335544x3) (2 : Fin 3) (pieces rows cols) concatenates_S8x335544x1_S8x335544x1_S8x335544x1_S8x335544x3_d2 (tri j 2) 2 (by show (2 : Nat) < 3; decide)
    S8x335544x1 _ rfl rfl 2 rfl (col1 j) (fun b hb => by fin_cases b <;> first | rfl | exact absurd rfl hb) rfl,
    column_apply]

/-- Wrapping leaves a non-negative index as it is. -/
theorem wrap_nonneg (x : IVec S8x335544 32) (j : S8x335544.Idx) (h : 0 ≤ (x j).toInt) : wrapIdx x j = x j := by
  show Scalar.select (IntOp.cmpi .slt (x j) 0#32) (x j + 4096#32) (x j) = x j
  have : ¬ IntOp.cmpi .slt (x j) 0#32 = 1#1 := fun e => by
    have := IntOp.cmpi_slt.1 e
    rw [show (0#32 : BitVec 32).toInt = 0 by decide] at this
    omega
  exact if_neg this

end Cert.KernelIdeal.Host

end
-- ==== Proof.RefIdx.lean ====
/-
  Where the reference's gather reads and where its scatter-add lands.  Update element `j' = (s, chunk, n)` of
  the [64, 8, 335544] products carries the index pair of entry (chunk, n).  The scatter-add adds it at the element
  (s, first component, second component) of the [64, 8, 4096] result — the components read as signed integers,
  the update dropped when one is out of range.  The gather reads the state at (s, first, second) with each
  component clamped into its axis.  The pairs' components are the chunk number and a wrapped index array.
-/
import proofs.«412699_j45578192945261_2_alg».proof.Proof.Gen.ReferenceIdeal.Read
import Idealize.ShloMosaic.Lib.Pipeline.Value
import Idealize.ShloMosaic.Lib.ValueIdx
import Idealize.ShloMosaic.Lib.Affine

set_option maxRecDepth 16384

noncomputable section

namespace Cert.ReferenceIdeal.RefIdx

open Idealize.ShloMosaic Idealize.ShloMosaic.ValueIdx
open Cert.ReferenceIdeal Cert.ReferenceIdeal.Gen Cert.ReferenceIdeal.Read

abbrev dR := scatter_S64x8x4096_S8x335544x2_S64x8x335544_0_12_12_2
abbrev dG := gather_S64x8x4096_S8x335544x2_S64x8x335544_0_12_n_n_12_2_6411

/-- Where component `a` of the index pair that update element `j'` uses sits in the [8, 335544, 2] index array. -/
def duo (j' : S64x8x335544.Idx) (a : Fin 2) : S8x335544x2.Idx := fun b => match b with
  | ⟨0, _⟩ => ⟨(j' 1).val, (j' 1).isLt⟩
  | ⟨1, _⟩ => ⟨(j' 2).val, (j' 2).isLt⟩
  | ⟨2, _⟩ => ⟨a.val, a.isLt⟩

/-! ## The scatter-add -/

theorem scatter_siIdx (j' : S64x8x335544.Idx) (a : Fin 2) : dR.siIdx j' ⟨a.val, by fin_cases a <;> decide⟩ = duo j' a := by
  funext b
  fin_cases b <;> fin_cases a <;> rfl

theorem scatter_start0 (j' : S64x8x335544.Idx) (idx : IVec S8x335544x2 32) : dR.start j' idx 0 = 0 := by
  unfold ScatterDims.start; rw [dif_neg (by decide)]
theorem scatter_start1 (j' : S64x8x335544.Idx) (idx : IVec S8x335544x2 32) : dR.start j' idx 1 = (idx (duo j' 0)).toInt := by
  unfold ScatterDims.start; rw [dif_pos (by decide)]; exact congrArg (fun z => (idx z).toInt) (scatter_siIdx j' 0)
theorem scatter_start2 (j' : S64x8x335544.Idx) (idx : IVec S8x335544x2 32) : dR.start j' idx 2 = (idx (duo j' 1)).toInt := by
  unfold ScatterDims.start; rw [dif_pos (by decide)]; exact congrArg (fun z => (idx z).toInt) (scatter_siIdx j' 1)

theorem scatter_window0 (j' : S64x8x335544.Idx) : dR.window j' 0 = (j' 0).val := by
  unfold ScatterDims.window; rw [dif_pos (by decide)]; rfl
theorem scatter_window1 (j' : S64x8x335544.Idx) : dR.window j' 1 = 0 := by
  unfold ScatterDims.window; rw [dif_neg (by decide)]
theorem scatter_window2 (j' : S64x8x335544.Idx) : dR.window j' 2 = 0 := by
  unfold ScatterDims.window; rw [dif_neg (by decide)]

/-- The signed position of update element `j'` on each axis of the result. -/
def pos (j' : S64x8x335544.Idx) (idx : IVec S8x335544x2 32) (a : Fin 3) : Int := match a with
  | ⟨0, _⟩ => ((j' 0).val : Int)
  | ⟨1, _⟩ => (idx (duo j' 0)).toInt
  | ⟨2, _⟩ => (idx (duo j' 1)).toInt

theorem scatter_pos (j' : S64x8x335544.Idx) (idx : IVec S8x335544x2 32) (a : Fin 3) :
    dR.start j' idx a + (dR.window j' a : Int) = pos j' idx a := by
  fin_cases a
  · show dR.start j' idx 0 + (dR.window j' 0 : Int) = _; rw [scatter_start0, scatter_window0]; simp [pos]
  · show dR.start j' idx 1 + (dR.window j' 1 : Int) = _; rw [scatter_start1, scatter_window1]; simp [pos]
  · show dR.start j' idx 2 + (dR.window j' 2 : Int) = _; rw [scatter_start2, scatter_window2]; simp [pos]

/-- Update element `j'` lands on element `i` iff its signed position is `i`'s coordinate on every axis. -/
theorem lands_iff (j' : S64x8x335544.Idx) (idx : IVec S8x335544x2 32) (i : S64x8x4096.Idx) :
    dR.resultIdx? j' idx = some i ↔ ∀ a : Fin 3, pos j' idx a = ((i a).val : Int) := by
  unfold ScatterDims.resultIdx?
  by_cases h : ∀ a, 0 ≤ dR.start j' idx a + dR.window j' a ∧ dR.start j' idx a + dR.window j' a < S64x8x4096.size a
  · rw [dif_pos h, Option.some.injEq]
    constructor
    · intro e a
      have e' : (dR.start j' idx a + (dR.window j' a : Int)).toNat = (i a).val := congrArg (fun f => (f a).val) e
      have h0 := (h a).1
      rw [scatter_pos] at e' h0
      omega
    · intro e
      funext a; apply Fin.ext
      show (dR.start j' idx a + (dR.window j' a : Int)).toNat = (i a).val
      rw [scatter_pos, e a]; simp
  · rw [dif_neg h]
    constructor
    · intro e; cases e
    · intro e; exfalso; apply h; intro a
      rw [scatter_pos, e a]
      exact ⟨Int.natCast_nonneg _, by exact_mod_cast (i a).isLt⟩

/-! ## The gather -/

theorem gather_siIdx (j' : S64x8x335544.Idx) (a : Fin 2) : dG.siIdx j' ⟨a.val, by fin_cases a <;> decide⟩ = duo j' a := by
  funext b
  fin_cases b <;> fin_cases a <;> rfl

theorem gather_val0 (j' : S64x8x335544.Idx) (idx : IVec S8x335544x2 32) : (dG.operandIdx j' idx 0).val = (j' 0).val := by
  show dG.start j' idx 0 + dG.batchCoord j' 0 + dG.offCoord j' 0 = _
  rw [GatherDims.batchCoord_eq_zero _ _ _ (by decide)]
  unfold GatherDims.start GatherDims.offCoord
  rw [dif_neg (by decide), dif_pos (by decide)]
  show 0 + 0 + (j' 0).val = _
  omega

theorem gather_val1 (j' : S64x8x335544.Idx) (idx : IVec S8x335544x2 32) :
    (dG.operandIdx j' idx 1).val = min (idx (duo j' 0)).toInt.toNat 7 := by
  show dG.start j' idx 1 + dG.batchCoord j' 1 + dG.offCoord j' 1 = _
  rw [GatherDims.batchCoord_eq_zero _ _ _ (by decide), GatherDims.offCoord_eq_zero _ _ _ (by decide)]
  unfold GatherDims.start
  rw [dif_pos (by decide)]
  show min (idx (dG.siIdx j' ⟨(0 : Fin 2).val, _⟩)).toInt.toNat (8 - 1) + 0 + 0 = _
  rw [gather_siIdx j' 0]
  rfl

theorem gather_val2 (j' : S64x8x335544.Idx) (idx : IVec S8x335544x2 32) :
    (dG.operandIdx j' idx 2).val = min (idx (duo j' 1)).toInt.toNat 4095 := by
  show dG.start j' idx 2 + dG.batchCoord j' 2 + dG.offCoord j' 2 = _
  rw [GatherDims.batchCoord_eq_zero _ _ _ (by decide), GatherDims.offCoord_eq_zero _ _ _ (by decide)]
  unfold GatherDims.start
  rw [dif_pos (by decide)]
  show min (idx (dG.siIdx j' ⟨(1 : Fin 2).val, _⟩)).toInt.toNat (4096 - 1) + 0 + 0 = _
  rw [gather_siIdx j' 1]
  rfl

/-! ## The components of the index pairs -/

/-- A chunk number below 8, wrapped as the program wraps it (8 added if negative), is itself. -/
theorem wrap_chunk (n : Nat) (hn : n < 8) :
    Scalar.select (IntOp.cmpi .slt (BitVec.ofNat 32 n) 0#32) (IntOp.addi (BitVec.ofNat 32 n) 8#32) (BitVec.ofNat 32 n) = BitVec.ofNat 32 n := by
  interval_cases n <;> decide

/-- The chunk column the gather's pairs use. -/
theorem chunk_gather (i : S8x1.Idx) : val_main_v6 (F := Ideal) i = BitVec.ofNat 32 (i 0).val := by
  rw [val_main_v6_apply, val_main_v3_apply, val_main_v5_apply, val_main_v1_apply, val_main_v0_apply, val_main_v2_apply,
    val_main_c_apply, val_main_v4_apply, val_main_c_0_apply]
  exact wrap_chunk (i 0).val (i 0).isLt

/-- The chunk column the scatter's pairs use. -/
theorem chunk_scatter (i : S8x1.Idx) : val_main_v25 (F := Ideal) i = BitVec.ofNat 32 (i 0).val := by
  rw [val_main_v25_apply, val_main_v22_apply, val_main_v24_apply, val_main_v1_apply, val_main_v0_apply, val_main_v21_apply,
    val_main_c_3_apply, val_main_v23_apply, val_main_c_4_apply]
  exact wrap_chunk (i 0).val (i 0).isLt

/-- The entry (chunk, n) that update element `j' = (s, chunk, n)` belongs to. -/
def entryOf (j' : S64x8x335544.Idx) : S8x335544.Idx := fun a => match a with
  | ⟨0, _⟩ => ⟨(j' 1).val, (j' 1).isLt⟩
  | ⟨1, _⟩ => ⟨(j' 2).val, (j' 2).isLt⟩

/-- Its place in an [8, 335544, 1] column array. -/
def colOf (j' : S64x8x335544.Idx) : S8x335544x1.Idx := fun b => match b with
  | ⟨0, _⟩ => ⟨(j' 1).val, (j' 1).isLt⟩
  | ⟨1, _⟩ => ⟨(j' 2).val, (j' 2).isLt⟩
  | ⟨2, _⟩ => (0 : Fin 1)

abbrev gatherPieces (cols : IVec S8x335544 32) : List ((s : Shape) × IVec s 32) :=
  [⟨S8x335544x1, val_main_v13 (F := Ideal)⟩, ⟨S8x335544x1, val_main_v14 (F := Ideal) cols⟩]
abbrev scatterPieces (rows : IVec S8x335544 32) : List ((s : Shape) × IVec s 32) :=
  [⟨S8x335544x1, val_main_v32 (F := Ideal)⟩, ⟨S8x335544x1, val_main_v33 (F := Ideal) rows⟩]

theorem gather_pair_chunk (cols : IVec S8x335544 32) (j' : S64x8x335544.Idx) :
    val_main_v15 (F := Ideal) cols (duo j' 0) = BitVec.ofNat 32 (j' 1).val := by
  show concatenate S8x335544x2 2 (gatherPieces cols) concatenates_S8x335544x1_S8x335544x1_S8x335544x2_d2 (duo j' 0) = _
  rw [concatenate_apply_piece (t := S8x335544x2) (2 : Fin 3) (gatherPieces cols) concatenates_S8x335544x1_S8x335544x1_S8x335544x2_d2 (duo j' 0) 0
    (by show (0 : Nat) < 2; decide) S8x335544x1 _ rfl rfl 0 rfl (colOf j') (fun b hb => by fin_cases b <;> first | rfl | exact absurd rfl hb) rfl,
    val_main_v13_apply, val_main_v12_apply, chunk_gather]
  rfl

theorem gather_pair_col (cols : IVec S8x335544 32) (j' : S64x8x335544.Idx) :
    val_main_v15 (F := Ideal) cols (duo j' 1) = val_main_v11 (F := Ideal) cols (entryOf j') := by
  show concatenate S8x335544x2 2 (gatherPieces cols) concatenates_S8x335544x1_S8x335544x1_S8x335544x2_d2 (duo j' 1) = _
  rw [concatenate_apply_piece (t := S8x335544x2) (2 : Fin 3) (gatherPieces cols) concatenates_S8x335544x1_S8x335544x1_S8x335544x2_d2 (duo j' 1) 1
    (by show (1 : Nat) < 2; decide) S8x335544x1 _ rfl rfl 1 rfl (colOf j') (fun b hb => by fin_cases b <;> first | rfl | exact absurd rfl hb) rfl,
    val_main_v14_apply]
  exact congrArg (val_main_v11 (F := Ideal) cols) (funext fun a => by fin_cases a <;> rfl)

theorem scatter_pair_chunk (rows : IVec S8x335544 32) (j' : S64x8x335544.Idx) :
    val_main_v34 (F := Ideal) rows (duo j' 0) = BitVec.ofNat 32 (j' 1).val := by
  show concatenate S8x335544x2 2 (scatterPieces rows) concatenates_S8x335544x1_S8x335544x1_S8x335544x2_d2 (duo j' 0) = _
  rw [concatenate_apply_piece (t := S8x335544x2) (2 : Fin 3) (scatterPieces rows) concatenates_S8x335544x1_S8x335544x1_S8x335544x2_d2 (duo j' 0) 0
    (by show (0 : Nat) < 2; decide) S8x335544x1 _ rfl rfl 0 rfl (colOf j') (fun b hb => by fin_cases b <;> first | rfl | exact absurd rfl hb) rfl,
    val_main_v32_apply, val_main_v31_apply, chunk_scatter]
  rfl

theorem scatter_pair_row (rows : IVec S8x335544 32) (j' : S64x8x335544.Idx) :
    val_main_v34 (F := Ideal) rows (duo j' 1) = val_main_v30 (F := Ideal) rows (entryOf j') := by
  show concatenate S8x335544x2 2 (scatterPieces rows) concatenates_S8x335544x1_S8x335544x1_S8x335544x2_d2 (duo j' 1) = _
  rw [concatenate_apply_piece (t := S8x335544x2) (2 : Fin 3) (scatterPieces rows) concatenates_S8x335544x1_S8x335544x1_S8x335544x2_d2 (duo j' 1) 1
    (by show (1 : Nat) < 2; decide) S8x335544x1 _ rfl rfl 1 rfl (colOf j') (fun b hb => by fin_cases b <;> first | rfl | exact absurd rfl hb) rfl,
    val_main_v33_apply]
  exact congrArg (val_main_v30 (F := Ideal) rows) (funext fun a => by fin_cases a <;> rfl)

/-- Wrapping leaves a non-negative column index as it is. -/
theorem wrap_col_nonneg (cols : IVec S8x335544 32) (j : S8x335544.Idx) (h : 0 ≤ (cols j).toInt) :
    val_main_v11 (F := Ideal) cols j = cols j := by
  rw [val_main_v11_apply, val_main_v8_apply, val_main_v7_apply, val_main_c_1_apply]
  have : ¬ IntOp.cmpi .slt (cols j) 0#32 = 1#1 := fun e => by
    have := IntOp.cmpi_slt.1 e
    rw [show (0#32 : BitVec 32).toInt = 0 by decide] at this
    omega
  exact if_neg this

end Cert.ReferenceIdeal.RefIdx

end
-- ==== Proof.Sums.lean ====
/-
  Two facts about finite sums, over abstract index types.

  * A weighted sum over a fibred family.  Let every `j` of a finite family carry a weight `v j`, a key
    `col j` and a property `P j`.  Summing over the keys `k` the product of `a k` with the total weight of
    the members of key `k` that satisfy `P` is the sum over the members satisfying `P` of `v j · a (col j)`:
    each member is counted once, under its own key.  Over the reals this is distributivity and an exchange
    of the two sums; over the extended reals it holds when the `a k` and the `v j` are finite, which is what
    lets a factor move across a sum there.

  * A sum over the members of a product-like family whose first component is fixed is the sum over the
    second components.
-/
import Mathlib.Algebra.BigOperators.Ring.Finset
import Mathlib.Algebra.BigOperators.Fin
import Mathlib.Data.EReal.Operations
import Mathlib.Data.Fintype.BigOperators

namespace Cert.Esn

open Finset

variable {K J : Type*} [Fintype K] [Fintype J] [DecidableEq K]

/-- Over the reals: `∑ₖ aₖ · ∑_{j : col j = k, P j} vⱼ = ∑_{j : P j} vⱼ · a_{col j}`. -/
theorem sum_mul_fiber (a : K → ℝ) (v : J → ℝ) (col : J → K) (P : J → Prop) [DecidablePred P] :
    ∑ k, a k * ∑ j ∈ univ.filter (fun j => col j = k ∧ P j), v j = ∑ j ∈ univ.filter P, v j * a (col j) := by
  calc ∑ k, a k * ∑ j ∈ univ.filter (fun j => col j = k ∧ P j), v j
      = ∑ k, ∑ j ∈ univ.filter P, if col j = k then v j * a k else 0 := by
        refine Finset.sum_congr rfl fun k _ => ?_
        rw [Finset.mul_sum, Finset.sum_filter, Finset.sum_filter]
        refine Finset.sum_congr rfl fun j _ => ?_
        by_cases hP : P j <;> by_cases hc : col j = k <;> simp [hP, hc, mul_comm]
    _ = ∑ j ∈ univ.filter P, ∑ k, if col j = k then v j * a k else 0 := Finset.sum_comm
    _ = ∑ j ∈ univ.filter P, v j * a (col j) := by
        refine Finset.sum_congr rfl fun j _ => ?_
        rw [Finset.sum_ite_eq univ (col j) (fun k => v j * a k), if_pos (Finset.mem_univ _)]

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- Over the extended reals, for finite factors and finite weights, with the zero each sum starts from. -/
theorem esum_mul_fiber (a : K → EReal) (v : J → EReal) (ha : ∀ k, ∃ r : ℝ, a k = (r : EReal))
    (hv : ∀ j, ∃ r : ℝ, v j = (r : EReal)) (col : J → K) (P : J → Prop) [DecidablePred P] :
    ∑ k, a k * (0 + ∑ j ∈ univ.filter (fun j => col j = k ∧ P j), v j) = 0 + ∑ j ∈ univ.filter P, v j * a (col j) := by
  choose a' ha' using ha
  choose v' hv' using hv
  have e1 : ∀ k, a k * (0 + ∑ j ∈ univ.filter (fun j => col j = k ∧ P j), v j)
      = ((a' k * ∑ j ∈ univ.filter (fun j => col j = k ∧ P j), v' j : ℝ) : EReal) := fun k => by
    rw [zero_add, ha' k, EReal.coe_mul, coe_sum]
    exact congrArg _ (Finset.sum_congr rfl fun j _ => hv' j)
  have e2 : ∀ j, v j * a (col j) = ((v' j * a' (col j) : ℝ) : EReal) := fun j => by
    rw [hv' j, ha' (col j), EReal.coe_mul]
  rw [zero_add, Finset.sum_congr rfl (fun k _ => e1 k), Finset.sum_congr rfl (fun j _ => e2 j), ← coe_sum, ← coe_sum,
    sum_mul_fiber]

/-- A sum over the members `j'` of a family in bijection with `S × J` whose first component is `s` and whose
    second satisfies `P` is the sum over the second components. -/
theorem sum_filter_fst {S J' M : Type*} [Fintype J'] [AddCommMonoid M] [DecidableEq S]
    (fst : J' → S) (snd : J' → J) (mk : S → J → J') (h1 : ∀ s j, fst (mk s j) = s) (h2 : ∀ s j, snd (mk s j) = j)
    (h3 : ∀ j', mk (fst j') (snd j') = j') (s : S) (P : J → Prop) [DecidablePred P] (f : J' → M) :
    ∑ j' ∈ univ.filter (fun j' => fst j' = s ∧ P (snd j')), f j' = ∑ j ∈ univ.filter P, f (mk s j) := by
  refine Finset.sum_nbij' snd (mk s) ?_ ?_ ?_ ?_ ?_
  · intro j' hj'
    rw [Finset.mem_filter] at hj' ⊢
    exact ⟨Finset.mem_univ _, hj'.2.2⟩
  · intro j hj
    rw [Finset.mem_filter] at hj ⊢
    exact ⟨Finset.mem_univ _, h1 s j, by rw [h2]; exact hj.2⟩
  · intro j' hj'
    rw [Finset.mem_filter] at hj'
    rw [← hj'.2.1]; exact h3 j'
  · intro j _
    exact h2 s j
  · intro j' hj'
    rw [Finset.mem_filter] at hj'
    rw [← hj'.2.1, h3]

end Cert.Esn
-- ==== Proof.Bridge.lean ====
/-
  The two programs compute one function.  At entry (s, c, r) both results are
      0.6 · tanh(wx + proj[s,c,r] + 1.6) + 0.4 · state[s,c,r],
  the kernel's `wx` the product of the state row with the dense weight,
      ∑ₖ state[s,c,k] · (0 + ∑_{entries j of chunk c with column k and row r} vals[j]),
  the reference's the scatter-add of the gathered products,
      0 + ∑_{entries j of chunk c with row r} vals[j] · state[s,c,column of j].
  They agree because every entry is counted once, under its own column — for finite state and values (a factor
  moves across a sum of extended reals only then) and column indices inside [0, 4096) (outside it the gather
  clamps where the scatter drops).  Row indices may be anything: an out-of-range row is dropped by both.
-/
import proofs.«412699_j45578192945261_2_alg».proof.Proof.KernelIdealValue
import proofs.«412699_j45578192945261_2_alg».proof.Proof.KernelIdealIdx
import proofs.«412699_j45578192945261_2_alg».proof.Proof.RefIdx
import proofs.«412699_j45578192945261_2_alg».proof.Proof.Sums
import Idealize.ShloMosaic.Lib.Pipeline.Value
import Idealize.ShloMosaic.Lib.ValueIdx
import Idealize.ShloMosaic.Lib.StableHlo.Predicate
import Idealize.ShloMosaic.PureOps.Ideal.Laws

set_option maxRecDepth 16384

noncomputable section

namespace Cert.Esn

open Idealize.ShloMosaic Idealize.ShloMosaic.ValueIdx
open Cert.KernelIdeal (S64x8x4096 S8x64x4096 S8x335544 S8x4096x4096 S8x335544x3)
open Cert.KernelIdeal.Host (dense scatterIdx wrapIdx chunkMajor dK tri triple_chunk triple_col triple_row wrap_nonneg)
open Cert.KernelIdeal.Blocks (update updateAt)
open Cert.KernelIdeal.Value (kernelOut)
open Cert.ReferenceIdeal (S64x8x335544 S8x335544x2)
open Cert.ReferenceIdeal.RefIdx (dR dG duo entryOf pos)
open Cert.ReferenceIdeal.Read
open scoped BigOperators

variable (rows cols : IVec S8x335544 32)

/-- A chunk number, as a 32-bit word, reads back as itself. -/
theorem chunk_toInt (n : Nat) (hn : n < 8) : (BitVec.ofNat 32 n).toInt = (n : Int) :=
  StableHlo.Predicate.toInt_ofNat_small n (by omega)

/-- The column of entry `j`, for column indices inside [0, 4096). -/
def colAt (hc : ∀ j, 0 ≤ (cols j).toInt ∧ (cols j).toInt < 4096) (j : S8x335544.Idx) : Fin 4096 :=
  ⟨(cols j).toInt.toNat, by have := hc j; omega⟩

/-- Entry `j` belongs to chunk `c` and its wrapped row index is `r`. -/
def hits (c : Fin 8) (r : Fin 4096) (j : S8x335544.Idx) : Prop :=
  (j 0).val = c.val ∧ (wrapIdx rows j).toInt = (r.val : Int)

instance (c : Fin 8) (r : Fin 4096) : DecidablePred (hits rows c r) := fun j => by unfold hits; infer_instance

/-- The dense weight's scatter-add lands entry `j` on element (c, k, r) iff `j` has column `k`, chunk `c`, row `r`. -/
theorem kernel_lands (hc : ∀ j, 0 ≤ (cols j).toInt ∧ (cols j).toInt < 4096) (c : Fin 8) (k r : Fin 4096) (j : S8x335544.Idx) :
    dK.resultIdx? j (scatterIdx rows cols) = some (ix3 c k r) ↔ colAt cols hc j = k ∧ hits rows c r j := by
  rw [Cert.KernelIdeal.Host.lands_iff]
  have hj : (j 0).val < 8 := (j 0).isLt
  constructor
  · intro h
    have h0 : (scatterIdx rows cols (tri j 0)).toInt = (c.val : Int) := h 0
    have h1 : (scatterIdx rows cols (tri j 1)).toInt = (k.val : Int) := h 1
    have h2 : (scatterIdx rows cols (tri j 2)).toInt = (r.val : Int) := h 2
    rw [triple_chunk, chunk_toInt _ hj] at h0
    rw [triple_col, wrap_nonneg _ _ (hc j).1] at h1
    rw [triple_row] at h2
    refine ⟨Fin.ext ?_, ?_, h2⟩
    · show (cols j).toInt.toNat = k.val; omega
    · exact_mod_cast h0
  · rintro ⟨hk, hc0, hr⟩ a
    have hk' : (cols j).toInt.toNat = k.val := congrArg Fin.val hk
    have := (hc j).1
    fin_cases a
    · show (scatterIdx rows cols (tri j 0)).toInt = (c.val : Int)
      rw [triple_chunk, chunk_toInt _ hj]; exact_mod_cast hc0
    · show (scatterIdx rows cols (tri j 1)).toInt = (k.val : Int)
      rw [triple_col, wrap_nonneg _ _ (hc j).1]; omega
    · show (scatterIdx rows cols (tri j 2)).toInt = (r.val : Int)
      rw [triple_row]; exact hr

/-- The reference's wrapped row index is the kernel's. -/
theorem wrap_rows_eq (j : S8x335544.Idx) : val_main_v30 (F := Ideal) rows j = wrapIdx rows j := rfl

/-- The reference's scatter-add lands update element `j' = (s', chunk, n)` on (s, c, r) iff `s' = s` and entry
    (chunk, n) has chunk `c` and row `r`. -/
theorem ref_lands (s : Fin 64) (c : Fin 8) (r : Fin 4096) (j' : S64x8x335544.Idx) :
    dR.resultIdx? j' (val_main_v34 (F := Ideal) rows) = some (ix3 s c r) ↔ (⟨(j' 0).val, (j' 0).isLt⟩ : Fin 64) = s ∧ hits rows c r (entryOf j') := by
  rw [Cert.ReferenceIdeal.RefIdx.lands_iff]
  have hj : (j' 1).val < 8 := (j' 1).isLt
  constructor
  · intro h
    have h0 : ((j' 0).val : Int) = (s.val : Int) := h 0
    have h1 : (val_main_v34 (F := Ideal) rows (duo j' 0)).toInt = (c.val : Int) := h 1
    have h2 : (val_main_v34 (F := Ideal) rows (duo j' 1)).toInt = (r.val : Int) := h 2
    rw [Cert.ReferenceIdeal.RefIdx.scatter_pair_chunk, chunk_toInt _ hj] at h1
    rw [Cert.ReferenceIdeal.RefIdx.scatter_pair_row, wrap_rows_eq] at h2
    exact ⟨Fin.ext (by exact_mod_cast h0), by show (j' 1).val = c.val; exact_mod_cast h1, h2⟩
  · rintro ⟨hs, hc0, hr⟩ a
    have hc0' : (j' 1).val = c.val := hc0
    fin_cases a
    · show ((j' 0).val : Int) = (s.val : Int)
      rw [← hs]
    · show (val_main_v34 (F := Ideal) rows (duo j' 0)).toInt = (c.val : Int)
      rw [Cert.ReferenceIdeal.RefIdx.scatter_pair_chunk, chunk_toInt _ hj]; exact_mod_cast hc0'
    · show (val_main_v34 (F := Ideal) rows (duo j' 1)).toInt = (r.val : Int)
      rw [Cert.ReferenceIdeal.RefIdx.scatter_pair_row, wrap_rows_eq]; exact hr

/-- The update element of sequence position `s` and entry `j`. -/
def updOf (s : Fin 64) (j : S8x335544.Idx) : S64x8x335544.Idx := fun a => match a with
  | ⟨0, _⟩ => s
  | ⟨1, _⟩ => ⟨(j 0).val, (j 0).isLt⟩
  | ⟨2, _⟩ => ⟨(j 1).val, (j 1).isLt⟩

/-- For in-range columns the gather reads, for update element (s, entry j), the state at (s, chunk of j, column of j). -/
theorem gather_reads (hc : ∀ j, 0 ≤ (cols j).toInt ∧ (cols j).toInt < 4096) (s : Fin 64) (j : S8x335544.Idx) :
    dG.operandIdx (updOf s j) (val_main_v15 (F := Ideal) cols)
      = ix3 s (⟨(j 0).val, (j 0).isLt⟩ : Fin 8) (colAt cols hc j) := by
  have hj : (j 0).val < 8 := (j 0).isLt
  have he : entryOf (updOf s j) = j := funext fun a => by fin_cases a <;> rfl
  funext a; apply Fin.ext
  fin_cases a
  · exact Cert.ReferenceIdeal.RefIdx.gather_val0 _ _
  · refine (Cert.ReferenceIdeal.RefIdx.gather_val1 _ _).trans ?_
    rw [Cert.ReferenceIdeal.RefIdx.gather_pair_chunk]
    show min (BitVec.ofNat 32 (j 0).val).toInt.toNat 7 = (j 0).val
    rw [chunk_toInt _ hj]; omega
  · refine (Cert.ReferenceIdeal.RefIdx.gather_val2 _ _).trans ?_
    rw [Cert.ReferenceIdeal.RefIdx.gather_pair_col, he, Cert.ReferenceIdeal.RefIdx.wrap_col_nonneg _ _ (hc j).1]
    show min (cols j).toInt.toNat 4095 = (cols j).toInt.toNat
    have := hc j; omega

variable (proj state : FVec Ideal S64x8x4096 .f32) (vals : FVec Ideal S8x335544 .f32)

/-- The dense weight at (c, k, r): the total value of the entries of chunk `c`, column `k`, row `r`. -/
theorem dense_apply (hc : ∀ j, 0 ≤ (cols j).toInt ∧ (cols j).toInt < 4096) (c : Fin 8) (k r : Fin 4096) :
    dense vals rows cols (ix3 c k r)
      = 0 + ∑ j ∈ Finset.univ.filter (fun j => colAt cols hc j = k ∧ hits rows c r j), vals j := by
  show Ideal.hostScatterAdd dK _ (scatterIdx rows cols) vals (ix3 c k r) = _
  unfold Ideal.hostScatterAdd
  refine congrArg₂ (· + ·) ?_ ?_
  · show Ideal.ofBits .f32 0x00000000#32 = 0
    exact Ideal.ofBits_zero_f32
  · exact Finset.sum_congr (Finset.filter_congr fun j _ => kernel_lands rows cols hc c k r j) fun _ _ => rfl

/-- The reference's scatter-add at (s, c, r): over the entries of chunk `c` and row `r`, value times the state at
    the entry's column. -/
theorem ref_wx_apply (hc : ∀ j, 0 ≤ (cols j).toInt ∧ (cols j).toInt < 4096) (s : Fin 64) (c : Fin 8) (r : Fin 4096) :
    val_main_v35 (F := Ideal) state vals rows cols (ix3 s c r)
      = 0 + ∑ j ∈ Finset.univ.filter (hits rows c r), vals j * state (ix3 s c (colAt cols hc j)) := by
  show Ideal.hostScatterAdd dR (val_main_v20 (F := Ideal)) (val_main_v34 (F := Ideal) rows) (val_main_v19 (F := Ideal) state vals cols) (ix3 s c r) = _
  unfold Ideal.hostScatterAdd
  refine congrArg₂ (· + ·) ?_ ?_
  · rw [val_main_v20_apply, val_main_cst_apply]
    exact Ideal.ofBits_zero_f32
  · have hf : (Finset.univ.filter fun j' : S64x8x335544.Idx => dR.resultIdx? j' (val_main_v34 (F := Ideal) rows) = some (ix3 s c r))
        = Finset.univ.filter (fun j' : S64x8x335544.Idx => (⟨(j' 0).val, (j' 0).isLt⟩ : Fin 64) = s ∧ hits rows c r (entryOf j')) :=
      Finset.filter_congr fun j' _ => ref_lands rows s c r j'
    rw [hf]
    rw [sum_filter_fst (fun j' : S64x8x335544.Idx => (⟨(j' 0).val, (j' 0).isLt⟩ : Fin 64)) entryOf updOf (fun _ _ => rfl)
      (fun _ j => funext fun a => by fin_cases a <;> rfl) (fun j' => funext fun a => by fin_cases a <;> rfl) s (hits rows c r)]
    refine Finset.sum_congr rfl fun j hj => ?_
    have hjc : (j 0).val = c.val := (Finset.mem_filter.mp hj).2.1
    rw [val_main_v19_apply, val_main_v18_apply, val_main_v17_apply]
    show vals (idx_main_v17 (idx_main_v18 (updOf s j))) * state (dG.operandIdx (updOf s j) (val_main_v15 (F := Ideal) cols)) = _
    rw [gather_reads cols hc s j]
    have e1 : idx_main_v17 (idx_main_v18 (updOf s j)) = j := funext fun a => by fin_cases a <;> rfl
    have e2 : (⟨(j 0).val, (j 0).isLt⟩ : Fin 8) = c := Fin.ext hjc
    rw [e1, e2]

/-- The kernel's matrix product against the dense weight is the reference's gather and scatter-add, for finite state
    and values and in-range columns. -/
theorem wx_eq (h1 : ∀ i, ∃ x : ℝ, state i = (x : EReal)) (h2 : ∀ j, ∃ x : ℝ, vals j = (x : EReal))
    (hc : ∀ j, 0 ≤ (cols j).toInt ∧ (cols j).toInt < 4096) (s : Fin 64) (c : Fin 8) (r : Fin 4096) :
    ∑ k : Fin 4096, state (ix3 s c k) * dense vals rows cols (ix3 c k r)
      = val_main_v35 (F := Ideal) state vals rows cols (ix3 s c r) := by
  rw [ref_wx_apply rows cols state vals hc s c r,
    Finset.sum_congr rfl fun k _ => by rw [dense_apply rows cols vals hc c k r]]
  exact esum_mul_fiber (fun k => state (ix3 s c k)) vals (fun k => h1 _) h2 (colAt cols hc) (hits rows c r)

/-- The kernel's result is the reference's, entry by entry. -/
theorem out_eq (h1 : ∀ i, ∃ x : ℝ, state i = (x : EReal)) (h2 : ∀ j, ∃ x : ℝ, vals j = (x : EReal))
    (hc : ∀ j, 0 ≤ (cols j).toInt ∧ (cols j).toInt < 4096) :
    kernelOut proj state vals rows cols = val_main_v44 (F := Ideal) proj state vals rows cols := by
  funext i
  obtain ⟨s, c, r, rfl⟩ : ∃ (s : Fin 64) (c : Fin 8) (r : Fin 4096), i = ix3 s c r := ⟨i 0, i 1, i 2, eq_ix3 i⟩
  have ht : ∀ (x : FVec Ideal S64x8x4096 .f32) (c' : Fin 8) (s' : Fin 64) (r' : Fin 4096),
      chunkMajor x (ix3 c' s' r') = x (ix3 s' c' r') := fun x c' s' r' =>
    transpose_apply _ x _ (ix3 c' s' r') (ix3 s' c' r') (fun b => by fin_cases b <;> rfl)
  refine (transpose_apply _ _ _ (ix3 s c r) (ix3 c s r) (fun b => by fin_cases b <;> rfl)).trans ?_
  show updateAt _ _ _ _ c s r = _
  unfold updateAt
  rw [val_main_v44_apply, val_main_v41_apply, val_main_v43_apply, val_main_v39_apply, val_main_v38_apply, val_main_v36_apply,
    val_main_v40_apply, val_main_cst_8_apply, val_main_v42_apply, val_main_cst_9_apply, val_main_v37_apply, val_main_cst_7_apply,
    ← wx_eq rows cols state vals h1 h2 hc s c r]
  simp only [truncf_apply, ht]
  rfl

end Cert.Esn

end
-- ==== Proof.lean ====
/-
  The leaky echo-state update `0.6 · tanh(Wr · state + proj + 1.6) + 0.4 · state`, with `Wr` a sparse matrix per chunk
  given as (value, row, column) triples.  The kernel first adds the triples into a dense transposed weight on the host
  and multiplies the state by it inside a pallas_call over (chunk, column tile); the reference gathers the state at the
  triples' columns, multiplies by the values and scatter-adds at the rows.

  Over the extended reals the two agree when the state and the values are finite (the dense product regroups the
  reference's sum, which moves a factor across a sum) and the column indices lie in [0, 4096): an out-of-range column
  is clamped by the reference's gather but dropped by the kernel's scatter, so the claim is stated under that range,
  which is the domain on which the reference's own indexing is in range.  Rows need no condition: both programs drop
  an entry whose row is out of range.

  The frames of the two kernel programs are the run of @main around the one pallas_call (its body a load of four
  blocks, one matmul, pointwise arithmetic and one covering store); the reference's frame is its run as a list of host
  operations.  No operation was rewritten by the idealization, so `preserves` is trivial.
-/
import proofs.«412699_j45578192945261_2_alg».proof.Defs
import proofs.«412699_j45578192945261_2_alg».proof.Proof.Gen.Kernel
import proofs.«412699_j45578192945261_2_alg».proof.Proof.Gen.KernelIdeal
import proofs.«412699_j45578192945261_2_alg».proof.Proof.Gen.ReferenceIdeal
import proofs.«412699_j45578192945261_2_alg».proof.Proof.Gen.Pre_finite_inputs
import proofs.«412699_j45578192945261_2_alg».proof.Proof.Gen.ReferenceIdeal.Run
import proofs.«412699_j45578192945261_2_alg».proof.Proof.Gen.ReferenceIdeal.Read
import proofs.«412699_j45578192945261_2_alg».proof.Proof.KernelRegion
import proofs.«412699_j45578192945261_2_alg».proof.Proof.KernelIdealValue
import proofs.«412699_j45578192945261_2_alg».proof.Proof.PreFacts
import proofs.«412699_j45578192945261_2_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Region.args_frame m ρ

/-- So does its idealization. -/
theorem frame_kernel_ideal : Cert.frame_KernelIdeal := fun m ρ _ => Cert.KernelIdeal.Region.args_frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the same result: the kernel's at `kernelOut` of
    the arguments, the reference's at its operations' term, and the two are one function under the precondition. -/
theorem algebraic : Cert.algebraic_KernelIdeal_ReferenceIdeal := by
  intro m ρ m' ρ' hpre hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, (hagree c).1, (hagree c).2.1, (hagree c).2.2.1, (hagree c).2.2.2.1, (hagree c).2.2.2.2]
  obtain ⟨h1, h2, hc⟩ := Cert.Esn.facts_of_pre _ _ _ _ _ (hpre c)
  exact (Cert.Esn.out_eq _ _ _ _ _ h1 h2 hc).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
